-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S3500 : Shape := ⟨1, ![3500]⟩
abbrev S16000 : Shape := ⟨1, ![16000]⟩
abbrev S1024 : Shape := ⟨1, ![1024]⟩
abbrev S4000 : Shape := ⟨1, ![4000]⟩
abbrev S1024x3500 : Shape := ⟨2, ![1024, 3500]⟩
abbrev S4000x16000 : Shape := ⟨2, ![4000, 16000]⟩
abbrev S256x128 : Shape := ⟨2, ![256, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S1024x3500 : S_.BroadcastsInDim S1024x3500 (![] : Fin 0 → Fin S1024x3500.rank)
  reducesTo_S1024x3500_S_d0_1 : S1024x3500.ReducesTo [0, 1] S_
  bcast_S_S4000x16000 : S_.BroadcastsInDim S4000x16000 (![] : Fin 0 → Fin S4000x16000.rank)
  reducesTo_S4000x16000_S_d0_1 : S4000x16000.ReducesTo [0, 1] S_
  bcast_S_S256x128 : S_.BroadcastsInDim S256x128 (![] : Fin 0 → Fin S256x128.rank)
  reducesTo_S256x128_S_d0_1 : S256x128.ReducesTo [0, 1] S_
  bcast_S_S3500 : S_.BroadcastsInDim S3500 (![] : Fin 0 → Fin S3500.rank)
  reducesTo_S3500_S_d0 : S3500.ReducesTo [0] S_
  bcast_S_S16000 : S_.BroadcastsInDim S16000 (![] : Fin 0 → Fin S16000.rank)
  reducesTo_S16000_S_d0 : S16000.ReducesTo [0] S_
  bcast_S_S1024 : S_.BroadcastsInDim S1024 (![] : Fin 0 → Fin S1024.rank)
  reducesTo_S1024_S_d0 : S1024.ReducesTo [0] S_
  bcast_S_S4000 : S_.BroadcastsInDim S4000 (![] : Fin 0 → Fin S4000.rank)
  reducesTo_S4000_S_d0 : S4000.ReducesTo [0] S_

variable [Facts]

def fn_part3 {F : FTy → Type} [FloatOps F] (main_v44 : IVec S_ 1) (main_v49 : IVec S4000 1) (main_c_19 : IVec S_ 1) : IVec S_ 1 :=
  let main_v50 : IVec S_ 1 := (fun x v => Host.reduce IntOp.andi x v reducesTo_S4000_S_d0 h_S_) main_v49 main_c_19
  let main_v51 : IVec S_ 1 := andi main_v44 main_v50
  main_v51

def fn_part2 {F : FTy → Type} [FloatOps F] (main_arg2 : IVec S16000 32) (main_arg3 : IVec S1024 32) (main_arg4 : IVec S4000 32) (main_v30 : IVec S_ 1) (main_v32 : IVec S16000 1) (main_c_12 : IVec S_ 32) : IVec S_ 1 :=
  let main_v33 : IVec S16000 32 := broadcastInDim S16000 ![] bcast_S_S16000 main_c_12
  let main_v34 : IVec S16000 1 := cmpi .slt main_arg2 main_v33
  let main_v35 : IVec S16000 1 := andi main_v32 main_v34
  let main_c_13 : IVec S_ 1 := constantI S_ 1 1#1
  let main_v36 : IVec S_ 1 := (fun x v => Host.reduce IntOp.andi x v reducesTo_S16000_S_d0 h_S_) main_v35 main_c_13
  let main_v37 : IVec S_ 1 := andi main_v30 main_v36
  let main_c_14 : IVec S_ 32 := constantI S_ 32 4294963296#32
  let main_v38 : IVec S1024 32 := broadcastInDim S1024 ![] bcast_S_S1024 main_c_14
  let main_v39 : IVec S1024 1 := cmpi .sge main_arg3 main_v38
  let main_c_15 : IVec S_ 32 := constantI S_ 32 4000#32
  let main_v40 : IVec S1024 32 := broadcastInDim S1024 ![] bcast_S_S1024 main_c_15
  let main_v41 : IVec S1024 1 := cmpi .slt main_arg3 main_v40
  let main_v42 : IVec S1024 1 := andi main_v39 main_v41
  let main_c_16 : IVec S_ 1 := constantI S_ 1 1#1
  let main_v43 : IVec S_ 1 := (fun x v => Host.reduce IntOp.andi x v reducesTo_S1024_S_d0 h_S_) main_v42 main_c_16
  let main_v44 : IVec S_ 1 := andi main_v37 main_v43
  let main_c_17 : IVec S_ 32 := constantI S_ 32 4294947296#32
  let main_v45 : IVec S4000 32 := broadcastInDim S4000 ![] bcast_S_S4000 main_c_17
  let main_v46 : IVec S4000 1 := cmpi .sge main_arg4 main_v45
  let main_c_18 : IVec S_ 32 := constantI S_ 32 20000#32
  let main_v47 : IVec S4000 32 := broadcastInDim S4000 ![] bcast_S_S4000 main_c_18
  let main_v48 : IVec S4000 1 := cmpi .slt main_arg4 main_v47
  let main_v49 : IVec S4000 1 := andi main_v46 main_v48
  let main_c_19 : IVec S_ 1 := constantI S_ 1 1#1
  fn_part3 (F := F) main_v44 main_v49 main_c_19

def fn_part1 {F : FTy → Type} [FloatOps F] (main_arg1 : IVec S3500 32) (main_arg2 : IVec S16000 32) (main_arg3 : IVec S1024 32) (main_arg4 : IVec S4000 32) (main_arg8 : FVec F S256x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg8
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_c_8 : IVec S_ 32 := constantI S_ 32 4294963296#32
  let main_v24 : IVec S3500 32 := broadcastInDim S3500 ![] bcast_S_S3500 main_c_8
  let main_v25 : IVec S3500 1 := cmpi .sge main_arg1 main_v24
  let main_c_9 : IVec S_ 32 := constantI S_ 32 4000#32
  let main_v26 : IVec S3500 32 := broadcastInDim S3500 ![] bcast_S_S3500 main_c_9
  let main_v27 : IVec S3500 1 := cmpi .slt main_arg1 main_v26
  let main_v28 : IVec S3500 1 := andi main_v25 main_v27
  let main_c_10 : IVec S_ 1 := constantI S_ 1 1#1
  let main_v29 : IVec S_ 1 := (fun x v => Host.reduce IntOp.andi x v reducesTo_S3500_S_d0 h_S_) main_v28 main_c_10
  let main_v30 : IVec S_ 1 := andi main_v23 main_v29
  let main_c_11 : IVec S_ 32 := constantI S_ 32 4294947296#32
  let main_v31 : IVec S16000 32 := broadcastInDim S16000 ![] bcast_S_S16000 main_c_11
  let main_v32 : IVec S16000 1 := cmpi .sge main_arg2 main_v31
  let main_c_12 : IVec S_ 32 := constantI S_ 32 20000#32
  fn_part2 (F := F) main_arg2 main_arg3 main_arg4 main_v30 main_v32 main_c_12

def fn {F : FTy → Type} [FloatOps F] (main_arg0 : FVec F S20000x128 .f32) (main_arg1 : IVec S3500 32) (main_arg2 : IVec S16000 32) (main_arg3 : IVec S1024 32) (main_arg4 : IVec S4000 32) (main_arg5 : FVec F S1024x3500 .f32) (main_arg6 : FVec F S4000x16000 .f32) (main_arg7 : FVec F S256x128 .f32) (main_arg8 : FVec F S256x128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S1024x3500 .f32 := Host.absf main_arg5
  let main_cst_0 : FVec F S_ .f32 := constant S_ .f32 0x7F800000#32
  let main_v5 : FVec F S1024x3500 .f32 := broadcastInDim S1024x3500 ![] bcast_S_S1024x3500 main_cst_0
  let main_v6 : IVec S1024x3500 1 := cmpf .olt main_v4 main_v5
  let main_c_1 : IVec S_ 1 := constantI S_ 1 1#1
  let main_v7 : IVec S_ 1 := (fun x v => Host.reduce IntOp.andi x v reducesTo_S1024x3500_S_d0_1 h_S_) main_v6 main_c_1
  let main_v8 : IVec S_ 1 := andi main_v3 main_v7
  let main_v9 : FVec F S4000x16000 .f32 := Host.absf main_arg6
  let main_cst_2 : FVec F S_ .f32 := constant S_ .f32 0x7F800000#32
  let main_v10 : FVec F S4000x16000 .f32 := broadcastInDim S4000x16000 ![] bcast_S_S4000x16000 main_cst_2
  let main_v11 : IVec S4000x16000 1 := cmpf .olt main_v9 main_v10
  let main_c_3 : IVec S_ 1 := constantI S_ 1 1#1
  let main_v12 : IVec S_ 1 := (fun x v => Host.reduce IntOp.andi x v reducesTo_S4000x16000_S_d0_1 h_S_) main_v11 main_c_3
  let main_v13 : IVec S_ 1 := andi main_v8 main_v12
  let main_v14 : FVec F S256x128 .f32 := Host.absf main_arg7
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg2 main_arg3 main_arg4 main_arg8 main_v13 main_v16
-- ==== Kernel.lean ====
abbrev S20000x128 : Shape := ⟨2, ![20000, 128]⟩
abbrev S3500 : Shape := ⟨1, ![3500]⟩
abbrev S16000 : Shape := ⟨1, ![16000]⟩
abbrev S1024 : Shape := ⟨1, ![1024]⟩
abbrev S4000 : Shape := ⟨1, ![4000]⟩
abbrev S1024x3500 : Shape := ⟨2, ![1024, 3500]⟩
abbrev S4000x16000 : Shape := ⟨2, ![4000, 16000]⟩
abbrev S256x128 : Shape := ⟨2, ![256, 128]⟩
abbrev S_ : Shape := ⟨0, ![]⟩
abbrev S4000x1 : Shape := ⟨2, ![4000, 1]⟩
abbrev S1 : Shape := ⟨1, ![1]⟩
abbrev S1x1 : Shape := ⟨2, ![1, 1]⟩
abbrev S4000x128 : Shape := ⟨2, ![4000, 128]⟩
abbrev S16000x1 : Shape := ⟨2, ![16000, 1]⟩
abbrev S16000x128 : Shape := ⟨2, ![16000, 128]⟩
abbrev S200x16000 : Shape := ⟨2, ![200, 16000]⟩
abbrev S200x128 : Shape := ⟨2, ![200, 128]⟩
abbrev S200x256 : Shape := ⟨2, ![200, 256]⟩
abbrev S1024x1 : Shape := ⟨2, ![1024, 1]⟩
abbrev S1024x128 : Shape := ⟨2, ![1024, 128]⟩
abbrev S3500x1 : Shape := ⟨2, ![3500, 1]⟩
abbrev S3500x128 : Shape := ⟨2, ![3500, 128]⟩
abbrev S512x3500 : Shape := ⟨2, ![512, 3500]⟩
abbrev S512x128 : Shape := ⟨2, ![512, 128]⟩
abbrev S512x256 : Shape := ⟨2, ![512, 256]⟩

abbrev nBuf : Space → Nat
  | .hbm => 105
  | .vmem => 16
  | .smem => 0
  | _ => 0

abbrev bufTy : (tb : Table) → Fin (tcTables nBuf tb) → BufTy
  | .hbm, ⟨0, _⟩ => ⟨S20000x128, .f32⟩
  | .hbm, ⟨1, _⟩ => ⟨S3500, .i32⟩
  | .hbm, ⟨2, _⟩ => ⟨S16000, .i32⟩
  | .hbm, ⟨3, _⟩ => ⟨S1024, .i32⟩
  | .hbm, ⟨4, _⟩ => ⟨S4000, .i32⟩
  | .hbm, ⟨5, _⟩ => ⟨S1024x3500, .f32⟩
  | .hbm, ⟨6, _⟩ => ⟨S4000x16000, .f32⟩
  | .hbm, ⟨7, _⟩ => ⟨S256x128, .f32⟩
  | .hbm, ⟨8, _⟩ => ⟨S256x128, .f32⟩
  | .hbm, ⟨9, _⟩ => ⟨S_, .i32⟩
  | .hbm, ⟨10, _⟩ => ⟨S4000, .i32⟩
  | .hbm, ⟨11, _⟩ => ⟨S4000, .i1⟩
  | .hbm, ⟨12, _⟩ => ⟨S_, .i32⟩
  | .hbm, ⟨13, _⟩ => ⟨S4000, .i32⟩
  | .hbm, ⟨14, _⟩ => ⟨S4000, .i32⟩
  | .hbm, ⟨15, _⟩ => ⟨S4000, .i32⟩
  | .hbm, ⟨16, _⟩ => ⟨S4000x1, .i32⟩
  | .hbm, ⟨17, _⟩ => ⟨S1, .i32⟩
  | .hbm, ⟨18, _⟩ => ⟨S_, .i32⟩
  | .hbm, ⟨19, _⟩ => ⟨S4000x1, .i32⟩
  | .hbm, ⟨20, _⟩ => ⟨S4000x1, .i1⟩
  | .hbm, ⟨21, _⟩ => ⟨S1x1, .i32⟩
  | .hbm, ⟨22, _⟩ => ⟨S4000x1, .i32⟩
  | .hbm, ⟨23, _⟩ => ⟨S4000x1, .i1⟩
  | .hbm, ⟨24, _⟩ => ⟨S4000x1, .i1⟩
  | .hbm, ⟨25, _⟩ => ⟨S_, .i1⟩
  | .hbm, ⟨26, _⟩ => ⟨S4000, .i1⟩
  | .hbm, ⟨27, _⟩ => ⟨S4000x128, .f32⟩
  | .hbm, ⟨28, _⟩ => ⟨S4000x128, .i1⟩
  | .hbm, ⟨29, _⟩ => ⟨S_, .f32⟩
  | .hbm, ⟨30, _⟩ => ⟨S4000x128, .f32⟩
  | .hbm, ⟨31, _⟩ => ⟨S4000x128, .f32⟩
  | .hbm, ⟨32, _⟩ => ⟨S_, .i32⟩
  | .hbm, ⟨33, _⟩ => ⟨S16000, .i32⟩
  | .hbm, ⟨34, _⟩ => ⟨S16000, .i1⟩
  | .hbm, ⟨35, _⟩ => ⟨S_, .i32⟩
  | .hbm, ⟨36, _⟩ => ⟨S16000, .i32⟩
  | .hbm, ⟨37, _⟩ => ⟨S16000, .i32⟩
  | .hbm, ⟨38, _⟩ => ⟨S16000, .i32⟩
  | .hbm, ⟨39, _⟩ => ⟨S16000x1, .i32⟩
  | .hbm, ⟨40, _⟩ => ⟨S1, .i32⟩
  | .hbm, ⟨41, _⟩ => ⟨S_, .i32⟩
  | .hbm, ⟨42, _⟩ => ⟨S16000x1, .i32⟩
  | .hbm, ⟨43, _⟩ => ⟨S16000x1, .i1⟩
  | .hbm, ⟨44, _⟩ => ⟨S1x1, .i32⟩
  | .hbm, ⟨45, _⟩ => ⟨S16000x1, .i32⟩
  | .hbm, ⟨46, _⟩ => ⟨S16000x1, .i1⟩
  | .hbm, ⟨47, _⟩ => ⟨S16000x1, .i1⟩
  | .hbm, ⟨48, _⟩ => ⟨S_, .i1⟩
  | .hbm, ⟨49, _⟩ => ⟨S16000, .i1⟩
  | .hbm, ⟨50, _⟩ => ⟨S16000x128, .f32⟩
  | .hbm, ⟨51, _⟩ => ⟨S16000x128, .i1⟩
  | .hbm, ⟨52, _⟩ => ⟨S_, .f32⟩
  | .hbm, ⟨53, _⟩ => ⟨S16000x128, .f32⟩
  | .hbm, ⟨54, _⟩ => ⟨S16000x128, .f32⟩
  | .hbm, ⟨55, _⟩ => ⟨S16000x128, .bf16⟩
  | .hbm, ⟨56, _⟩ => ⟨S4000x128, .f32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024, .i32⟩
  | .hbm, ⟨64, _⟩ => ⟨S1024x1, .i32⟩
  | .hbm, ⟨65, _⟩ => ⟨S1, .i32⟩
  | .hbm, ⟨66, _⟩ => ⟨S_, .i32⟩
  | .hbm, ⟨67, _⟩ => ⟨S1024x1, .i32⟩
  | .hbm, ⟨68, _⟩ => ⟨S1024x1, .i1⟩
  | .hbm, ⟨69, _⟩ => ⟨S1x1, .i32⟩
  | .hbm, ⟨70, _⟩ => ⟨S1024x1, .i32⟩
  | .hbm, ⟨71, _⟩ => ⟨S1024x1, .i1⟩
  | .hbm, ⟨72, _⟩ => ⟨S1024x1, .i1⟩
  | .hbm, ⟨73, _⟩ => ⟨S_, .i1⟩
  | .hbm, ⟨74, _⟩ => ⟨S1024, .i1⟩
  | .hbm, ⟨75, _⟩ => ⟨S1024x128, .f32⟩
  | .hbm, ⟨76, _⟩ => ⟨S1024x128, .i1⟩
  | .hbm, ⟨77, _⟩ => ⟨S_, .f32⟩
  | .hbm, ⟨78, _⟩ => ⟨S1024x128, .f32⟩
  | .hbm, ⟨79, _⟩ => ⟨S1024x128, .f32⟩
  | .hbm, ⟨80, _⟩ => ⟨S_, .i32⟩
  | .hbm, ⟨81, _⟩ => ⟨S3500, .i32⟩
  | .hbm, ⟨82, _⟩ => ⟨S3500, .i1⟩
  | .hbm, ⟨83, _⟩ => ⟨S_, .i32⟩
  | .hbm, ⟨84, _⟩ => ⟨S3500, .i32⟩
  | .hbm, ⟨85, _⟩ => ⟨S3500, .i32⟩
  | .hbm, ⟨86, _⟩ => ⟨S3500, .i32⟩
  | .hbm, ⟨87, _⟩ => ⟨S3500x1, .i32⟩
  | .hbm, ⟨88, _⟩ => ⟨S1, .i32⟩
  | .hbm, ⟨89, _⟩ => ⟨S_, .i32⟩
  | .hbm, ⟨90, _⟩ => ⟨S3500x1, .i32⟩
  | .hbm, ⟨91, _⟩ => ⟨S3500x1, .i1⟩
  | .hbm, ⟨92, _⟩ => ⟨S1x1, .i32⟩
  | .hbm, ⟨93, _⟩ => ⟨S3500x1, .i32⟩
  | .hbm, ⟨94, _⟩ => ⟨S3500x1, .i1⟩
  | .hbm, ⟨95, _⟩ => ⟨S3500x1, .i1⟩
  | .hbm, ⟨96, _⟩ => ⟨S_, .i1⟩
  | .hbm, ⟨97, _⟩ => ⟨S3500, .i1⟩
  | .hbm, ⟨98, _⟩ => ⟨S3500x128, .f32⟩
  | .hbm, ⟨99, _⟩ => ⟨S3500x128, .i1⟩
  | .hbm, ⟨100, _⟩ => ⟨S_, .f32⟩
  | .hbm, ⟨101, _⟩ => ⟨S3500x128, .f32⟩
  | .hbm, ⟨102, _⟩ => ⟨S3500x128, .f32⟩
  | .hbm, ⟨103, _⟩ => ⟨S3500x128, .bf16⟩
  | .hbm, ⟨104, _⟩ => ⟨S1024x128, .f32⟩
  | .local _ .vmem, ⟨0, _⟩ => ⟨S200x16000, .f32⟩
  | .local _ .vmem, ⟨1, _⟩ => ⟨S200x16000, .f32⟩
  | .local _ .vmem, ⟨2, _⟩ => ⟨S16000x128, .bf16⟩
  | .local _ .vmem, ⟨3, _⟩ => ⟨S200x128, .f32⟩
  | .local _ .vmem, ⟨4, _⟩ => ⟨S200x128, .f32⟩
  | .local _ .vmem, ⟨5, _⟩ => ⟨S256x128, .f32⟩
  | .local _ .vmem, ⟨6, _⟩ => ⟨S200x128, .f32⟩
  | .local _ .vmem, ⟨7, _⟩ => ⟨S200x128, .f32⟩
  | .local _ .vmem, ⟨8, _⟩ => ⟨S512x3500, .f32⟩
  | .local _ .vmem, ⟨9, _⟩ => ⟨S512x3500, .f32⟩
  | .local _ .vmem, ⟨10, _⟩ => ⟨S3500x128, .bf16⟩
  | .local _ .vmem, ⟨11, _⟩ => ⟨S512x128, .f32⟩
  | .local _ .vmem, ⟨12, _⟩ => ⟨S512x128, .f32⟩
  | .local _ .vmem, ⟨13, _⟩ => ⟨S256x128, .f32⟩
  | .local _ .vmem, ⟨14, _⟩ => ⟨S512x128, .f32⟩
  | .local _ .vmem, ⟨15, _⟩ => ⟨S512x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v4 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v5 : Ref sig .tc := ⟨.hbm, 102, rfl⟩
abbrev main_v6 : Ref sig .tc := ⟨.hbm, 103, rfl⟩
abbrev main_v7 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3500 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3500x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S4000 : S_.BroadcastsInDim S4000 (![] : Fin 0 → Fin S4000.rank)
  bcast_S4000_S4000x1_0 : S4000.BroadcastsInDim S4000x1 (![0] : Fin 1 → Fin S4000x1.rank)
  bcast_S_S4000x1 : S_.BroadcastsInDim S4000x1 (![] : Fin 0 → Fin S4000x1.rank)
  bcast_S1_S1x1_1 : S1.BroadcastsInDim S1x1 (![1] : Fin 1 → Fin S1x1.rank)
  bcast_S1x1_S4000x1_0_1 : S1x1.BroadcastsInDim S4000x1 (![0, 1] : Fin 2 → Fin S4000x1.rank)
  reducesTo_S4000x1_S4000_d1 : S4000x1.ReducesTo [1] S4000
  h_S_ : 0 < S_.numel
  bcast_S4000_S4000x128_0 : S4000.BroadcastsInDim S4000x128 (![0] : Fin 1 → Fin S4000x128.rank)
  bcast_S_S4000x128 : S_.BroadcastsInDim S4000x128 (![] : Fin 0 → Fin S4000x128.rank)
  bcast_S_S16000 : S_.BroadcastsInDim S16000 (![] : Fin 0 → Fin S16000.rank)
  bcast_S16000_S16000x1_0 : S16000.BroadcastsInDim S16000x1 (![0] : Fin 1 → Fin S16000x1.rank)
  bcast_S_S16000x1 : S_.BroadcastsInDim S16000x1 (![] : Fin 0 → Fin S16000x1.rank)
  bcast_S1x1_S16000x1_0_1 : S1x1.BroadcastsInDim S16000x1 (![0, 1] : Fin 2 → Fin S16000x1.rank)
  reducesTo_S16000x1_S16000_d1 : S16000x1.ReducesTo [1] S16000
  bcast_S16000_S16000x128_0 : S16000.BroadcastsInDim S16000x128 (![0] : Fin 1 → Fin S16000x128.rank)
  bcast_S_S16000x128 : S_.BroadcastsInDim S16000x128 (![] : Fin 0 → Fin S16000x128.rank)
  bitsLt_bf16_f32 : FTy.bits .bf16 < FTy.bits .f32
  inb_S200x16000_S200x16000_0_0 : ∀ a, (![0, 0] : Fin 2 → Nat) a + S200x16000.size a ≤ S200x16000.size a
  h_S200x16000 : 0 < S200x16000.numel
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  concatenates_S200x128_S200x128_S200x256_d1 : Shape.Concatenates [S200x128, S200x128] S200x256 1
  inb_S256x128_S256x128_0_0 : ∀ a, (![0, 0] : Fin 2 → Nat) a + S256x128.size a ≤ S256x128.size a
  h_S256x128 : 0 < S256x128.numel
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x128_0 : S1024.BroadcastsInDim S1024x128 (![0] : Fin 1 → Fin S1024x128.rank)
  bcast_S_S1024x128 : S_.BroadcastsInDim S1024x128 (![] : Fin 0 → Fin S1024x128.rank)
  bcast_S_S3500 : S_.BroadcastsInDim S3500 (![] : Fin 0 → Fin S3500.rank)
  bcast_S3500_S3500x1_0 : S3500.BroadcastsInDim S3500x1 (![0] : Fin 1 → Fin S3500x1.rank)
  bcast_S_S3500x1 : S_.BroadcastsInDim S3500x1 (![] : Fin 0 → Fin S3500x1.rank)
  bcast_S1x1_S3500x1_0_1 : S1x1.BroadcastsInDim S3500x1 (![0, 1] : Fin 2 → Fin S3500x1.rank)
  reducesTo_S3500x1_S3500_d1 : S3500x1.ReducesTo [1] S3500
  bcast_S3500_S3500x128_0 : S3500.BroadcastsInDim S3500x128 (![0] : Fin 1 → Fin S3500x128.rank)
  bcast_S_S3500x128 : S_.BroadcastsInDim S3500x128 (![] : Fin 0 → Fin S3500x128.rank)
  inb_S512x3500_S512x3500_0_0 : ∀ a, (![0, 0] : Fin 2 → Nat) a + S512x3500.size a ≤ S512x3500.size a
  h_S512x3500 : 0 < S512x3500.numel
  inb_S3500x128_S3500x128_0_0 : ∀ a, (![0, 0] : Fin 2 → Nat) a + S3500x128.size a ≤ S3500x128.size a
  h_S3500x128 : 0 < S3500x128.numel
  shapeCasts_S3500x128_S3500x128 : S3500x128.ShapeCasts S3500x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  concatenates_S512x128_S512x128_S512x256_d1 : Shape.Concatenates [S512x128, S512x128] S512x256 1
  gather_S20000x128_S4000x1_S4000x128_1_0_n_n_0_1_1128_wf : GatherDims.WF S20000x128 S4000x1 S4000x128 [1] [0] [] [0] [] 1 ![1, 128]
  gather_S20000x128_S16000x1_S16000x128_1_0_n_n_0_1_1128_wf : GatherDims.WF S20000x128 S16000x1 S16000x128 [1] [0] [] [0] [] 1 ![1, 128]
  dot_S200x16000_S16000x128_S200x128_1_0_0_1_n_n_wf : DotDims.WF S200x16000 S16000x128 S200x128 [1] [0] [0] [1] [] []
  dot_S200x256_S256x128_S200x128_1_0_0_1_n_n_wf : DotDims.WF S200x256 S256x128 S200x128 [1] [0] [0] [1] [] []
  gather_S4000x128_S1024x1_S1024x128_1_0_n_n_0_1_1128_wf : GatherDims.WF S4000x128 S1024x1 S1024x128 [1] [0] [] [0] [] 1 ![1, 128]
  gather_S4000x128_S3500x1_S3500x128_1_0_n_n_0_1_1128_wf : GatherDims.WF S4000x128 S3500x1 S3500x128 [1] [0] [] [0] [] 1 ![1, 128]
  dot_S512x3500_S3500x128_S512x128_1_0_0_1_n_n_wf : DotDims.WF S512x3500 S3500x128 S512x128 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x16000.size a ≤ S4000x16000.size a
  hwx0_0 : ∀ i : grid0.Coords, EltTy.bits .f32 = 32 ∨ (Rect.block (s := S4000x16000) S200x16000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16000x128.size a ≤ S16000x128.size a
  hwx0_1 : ∀ i : grid0.Coords, EltTy.bits .bf16 = 32 ∨ (Rect.block (s := S16000x128) S16000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x128.size a ≤ S4000x128.size a
  hwx0_2 : ∀ i : grid0.Coords, EltTy.bits .f32 = 32 ∨ (Rect.block (s := S4000x128) S200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S4000x128.size a
  hwx0_4 : ∀ i : grid0.Coords, EltTy.bits .f32 = 32 ∨ (Rect.block (s := S4000x128) S200x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3500.size a ≤ S1024x3500.size a
  hwx1_0 : ∀ i : grid1.Coords, EltTy.bits .f32 = 32 ∨ (Rect.block (s := S1024x3500) S512x3500.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3500x128.size a ≤ S3500x128.size a
  hwx1_1 : ∀ i : grid1.Coords, EltTy.bits .bf16 = 32 ∨ (Rect.block (s := S3500x128) S3500x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S1024x128.size a
  hwx1_2 : ∀ i : grid1.Coords, EltTy.bits .f32 = 32 ∨ (Rect.block (s := S1024x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S1024x128.size a
  hwx1_4 : ∀ i : grid1.Coords, EltTy.bits .f32 = 32 ∨ (Rect.block (s := S1024x128) S512x128.size (cc1_transform_4 i) (hinb1_4 i)).WholeWords (EltTy.packing .f32)

variable [Facts₀]

def gather_S20000x128_S4000x1_S4000x128_1_0_n_n_0_1_1128 : GatherDims S20000x128 S4000x1 S4000x128 where
  offsetDims := [1]
  collapsedSliceDims := [0]
  operandBatchingDims := []
  startIndicesBatchingDims := []
  startIndexMap := [0]
  indexVectorDim := 1
  sliceSizes := ![1, 128]
  wf := gather_S20000x128_S4000x1_S4000x128_1_0_n_n_0_1_1128_wf
def gather_S20000x128_S16000x1_S16000x128_1_0_n_n_0_1_1128 : GatherDims S20000x128 S16000x1 S16000x128 where
  offsetDims := [1]
  collapsedSliceDims := [0]
  operandBatchingDims := []
  startIndicesBatchingDims := []
  startIndexMap := [0]
  indexVectorDim := 1
  sliceSizes := ![1, 128]
  wf := gather_S20000x128_S16000x1_S16000x128_1_0_n_n_0_1_1128_wf
def dot_S200x16000_S16000x128_S200x128_1_0_0_1_n_n : DotDims S200x16000 S16000x128 S200x128 where
  lhsContracting := [1]
  rhsContracting := [0]
  lhsNonContracting := [0]
  rhsNonContracting := [1]
  lhsBatch := []
  rhsBatch := []
  wf := dot_S200x16000_S16000x128_S200x128_1_0_0_1_n_n_wf
def dot_S200x256_S256x128_S200x128_1_0_0_1_n_n : DotDims S200x256 S256x128 S200x128 where
  lhsContracting := [1]
  rhsContracting := [0]
  lhsNonContracting := [0]
  rhsNonContracting := [1]
  lhsBatch := []
  rhsBatch := []
  wf := dot_S200x256_S256x128_S200x128_1_0_0_1_n_n_wf
def gather_S4000x128_S1024x1_S1024x128_1_0_n_n_0_1_1128 : GatherDims S4000x128 S1024x1 S1024x128 where
  offsetDims := [1]
  collapsedSliceDims := [0]
  operandBatchingDims := []
  startIndicesBatchingDims := []
  startIndexMap := [0]
  indexVectorDim := 1
  sliceSizes := ![1, 128]
  wf := gather_S4000x128_S1024x1_S1024x128_1_0_n_n_0_1_1128_wf
def gather_S4000x128_S3500x1_S3500x128_1_0_n_n_0_1_1128 : GatherDims S4000x128 S3500x1 S3500x128 where
  offsetDims := [1]
  collapsedSliceDims := [0]
  operandBatchingDims := []
  startIndicesBatchingDims := []
  startIndexMap := [0]
  indexVectorDim := 1
  sliceSizes := ![1, 128]
  wf := gather_S4000x128_S3500x1_S3500x128_1_0_n_n_0_1_1128_wf
def dot_S512x3500_S3500x128_S512x128_1_0_0_1_n_n : DotDims S512x3500 S3500x128 S512x128 where
  lhsContracting := [1]
  rhsContracting := [0]
  lhsNonContracting := [0]
  rhsNonContracting := [1]
  lhsBatch := []
  rhsBatch := []
  wf := dot_S512x3500_S3500x128_S512x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg6) S200x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg5) S512x3500.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S3500x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S20000x128 : Shape := ⟨2, ![20000, 128]⟩
abbrev S3500 : Shape := ⟨1, ![3500]⟩
abbrev S16000 : Shape := ⟨1, ![16000]⟩
abbrev S1024 : Shape := ⟨1, ![1024]⟩
abbrev S4000 : Shape := ⟨1, ![4000]⟩
abbrev S1024x3500 : Shape := ⟨2, ![1024, 3500]⟩
abbrev S4000x16000 : Shape := ⟨2, ![4000, 16000]⟩
abbrev S256x128 : Shape := ⟨2, ![256, 128]⟩
abbrev S_ : Shape := ⟨0, ![]⟩
abbrev S4000x1 : Shape := ⟨2, ![4000, 1]⟩
abbrev S4000x128 : Shape := ⟨2, ![4000, 128]⟩
abbrev S16000x1 : Shape := ⟨2, ![16000, 1]⟩
abbrev S16000x128 : Shape := ⟨2, ![16000, 128]⟩
abbrev S4000x256 : Shape := ⟨2, ![4000, 256]⟩
abbrev S1024x1 : Shape := ⟨2, ![1024, 1]⟩
abbrev S1024x128 : Shape := ⟨2, ![1024, 128]⟩
abbrev S3500x1 : Shape := ⟨2, ![3500, 1]⟩
abbrev S3500x128 : Shape := ⟨2, ![3500, 128]⟩
abbrev S1024x256 : Shape := ⟨2, ![1024, 256]⟩

abbrev nBuf : Space → Nat
  | .hbm => 57
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S3500, .i32⟩
  | .hbm, ⟨2, _⟩ => ⟨S16000, .i32⟩
  | .hbm, ⟨3, _⟩ => ⟨S1024, .i32⟩
  | .hbm, ⟨4, _⟩ => ⟨S4000, .i32⟩
  | .hbm, ⟨5, _⟩ => ⟨S1024x3500, .f32⟩
  | .hbm, ⟨6, _⟩ => ⟨S4000x16000, .f32⟩
  | .hbm, ⟨7, _⟩ => ⟨S256x128, .f32⟩
  | .hbm, ⟨8, _⟩ => ⟨S256x128, .f32⟩
  | .hbm, ⟨9, _⟩ => ⟨S_, .i32⟩
  | .hbm, ⟨10, _⟩ => ⟨S4000, .i32⟩
  | .hbm, ⟨11, _⟩ => ⟨S4000, .i1⟩
  | .hbm, ⟨12, _⟩ => ⟨S_, .i32⟩
  | .hbm, ⟨13, _⟩ => ⟨S4000, .i32⟩
  | .hbm, ⟨14, _⟩ => ⟨S4000, .i32⟩
  | .hbm, ⟨15, _⟩ => ⟨S4000, .i32⟩
  | .hbm, ⟨16, _⟩ => ⟨S4000x1, .i32⟩
  | .hbm, ⟨17, _⟩ => ⟨S4000x128, .f32⟩
  | .hbm, ⟨18, _⟩ => ⟨S_, .i32⟩
  | .hbm, ⟨19, _⟩ => ⟨S16000, .i32⟩
  | .hbm, ⟨20, _⟩ => ⟨S16000, .i1⟩
  | .hbm, ⟨21, _⟩ => ⟨S_, .i32⟩
  | .hbm, ⟨22, _⟩ => ⟨S16000, .i32⟩
  | .hbm, ⟨23, _⟩ => ⟨S16000, .i32⟩
  | .hbm, ⟨24, _⟩ => ⟨S16000, .i32⟩
  | .hbm, ⟨25, _⟩ => ⟨S16000x1, .i32⟩
  | .hbm, ⟨26, _⟩ => ⟨S16000x128, .f32⟩
  | .hbm, ⟨27, _⟩ => ⟨S4000x128, .f32⟩
  | .hbm, ⟨28, _⟩ => ⟨S4000x256, .f32⟩
  | .hbm, ⟨29, _⟩ => ⟨S4000x128, .f32⟩
  | .hbm, ⟨30, _⟩ => ⟨S_, .f32⟩
  | .hbm, ⟨31, _⟩ => ⟨S4000x128, .f32⟩
  | .hbm, ⟨32, _⟩ => ⟨S4000x128, .f32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S1024x1, .i32⟩
  | .hbm, ⟨41, _⟩ => ⟨S1024x128, .f32⟩
  | .hbm, ⟨42, _⟩ => ⟨S_, .i32⟩
  | .hbm, ⟨43, _⟩ => ⟨S3500, .i32⟩
  | .hbm, ⟨44, _⟩ => ⟨S3500, .i1⟩
  | .hbm, ⟨45, _⟩ => ⟨S_, .i32⟩
  | .hbm, ⟨46, _⟩ => ⟨S3500, .i32⟩
  | .hbm, ⟨47, _⟩ => ⟨S3500, .i32⟩
  | .hbm, ⟨48, _⟩ => ⟨S3500, .i32⟩
  | .hbm, ⟨49, _⟩ => ⟨S3500x1, .i32⟩
  | .hbm, ⟨50, _⟩ => ⟨S3500x128, .f32⟩
  | .hbm, ⟨51, _⟩ => ⟨S1024x128, .f32⟩
  | .hbm, ⟨52, _⟩ => ⟨S1024x256, .f32⟩
  | .hbm, ⟨53, _⟩ => ⟨S1024x128, .f32⟩
  | .hbm, ⟨54, _⟩ => ⟨S_, .f32⟩
  | .hbm, ⟨55, _⟩ => ⟨S1024x128, .f32⟩
  | .hbm, ⟨56, _⟩ => ⟨S1024x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  bcast_S_S4000 : S_.BroadcastsInDim S4000 (![] : Fin 0 → Fin S4000.rank)
  bcast_S4000_S4000x1_0 : S4000.BroadcastsInDim S4000x1 (![0] : Fin 1 → Fin S4000x1.rank)
  bcast_S_S16000 : S_.BroadcastsInDim S16000 (![] : Fin 0 → Fin S16000.rank)
  bcast_S16000_S16000x1_0 : S16000.BroadcastsInDim S16000x1 (![0] : Fin 1 → Fin S16000x1.rank)
  concatenates_S4000x128_S4000x128_S4000x256_d1 : Shape.Concatenates [S4000x128, S4000x128] S4000x256 1
  bcast_S_S4000x128 : S_.BroadcastsInDim S4000x128 (![] : Fin 0 → Fin S4000x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S3500 : S_.BroadcastsInDim S3500 (![] : Fin 0 → Fin S3500.rank)
  bcast_S3500_S3500x1_0 : S3500.BroadcastsInDim S3500x1 (![0] : Fin 1 → Fin S3500x1.rank)
  concatenates_S1024x128_S1024x128_S1024x256_d1 : Shape.Concatenates [S1024x128, S1024x128] S1024x256 1
  bcast_S_S1024x128 : S_.BroadcastsInDim S1024x128 (![] : Fin 0 → Fin S1024x128.rank)
  gather_S20000x128_S4000x1_S4000x128_1_0_n_n_0_1_1128_wf : GatherDims.WF S20000x128 S4000x1 S4000x128 [1] [0] [] [0] [] 1 ![1, 128]
  gather_S20000x128_S16000x1_S16000x128_1_0_n_n_0_1_1128_wf : GatherDims.WF S20000x128 S16000x1 S16000x128 [1] [0] [] [0] [] 1 ![1, 128]
  dot_S4000x16000_S16000x128_S4000x128_1_0_0_1_n_n_wf : DotDims.WF S4000x16000 S16000x128 S4000x128 [1] [0] [0] [1] [] []
  dot_S4000x256_S256x128_S4000x128_1_0_0_1_n_n_wf : DotDims.WF S4000x256 S256x128 S4000x128 [1] [0] [0] [1] [] []
  gather_S4000x128_S1024x1_S1024x128_1_0_n_n_0_1_1128_wf : GatherDims.WF S4000x128 S1024x1 S1024x128 [1] [0] [] [0] [] 1 ![1, 128]
  gather_S4000x128_S3500x1_S3500x128_1_0_n_n_0_1_1128_wf : GatherDims.WF S4000x128 S3500x1 S3500x128 [1] [0] [] [0] [] 1 ![1, 128]
  dot_S1024x3500_S3500x128_S1024x128_1_0_0_1_n_n_wf : DotDims.WF S1024x3500 S3500x128 S1024x128 [1] [0] [0] [1] [] []
  dot_S1024x256_S256x128_S1024x128_1_0_0_1_n_n_wf : DotDims.WF S1024x256 S256x128 S1024x128 [1] [0] [0] [1] [] []

variable [Facts₀]

def gather_S20000x128_S4000x1_S4000x128_1_0_n_n_0_1_1128 : GatherDims S20000x128 S4000x1 S4000x128 where
  offsetDims := [1]
  collapsedSliceDims := [0]
  operandBatchingDims := []
  startIndicesBatchingDims := []
  startIndexMap := [0]
  indexVectorDim := 1
  sliceSizes := ![1, 128]
  wf := gather_S20000x128_S4000x1_S4000x128_1_0_n_n_0_1_1128_wf
def gather_S20000x128_S16000x1_S16000x128_1_0_n_n_0_1_1128 : GatherDims S20000x128 S16000x1 S16000x128 where
  offsetDims := [1]
  collapsedSliceDims := [0]
  operandBatchingDims := []
  startIndicesBatchingDims := []
  startIndexMap := [0]
  indexVectorDim := 1
  sliceSizes := ![1, 128]
  wf := gather_S20000x128_S16000x1_S16000x128_1_0_n_n_0_1_1128_wf
def dot_S4000x16000_S16000x128_S4000x128_1_0_0_1_n_n : DotDims S4000x16000 S16000x128 S4000x128 where
  lhsContracting := [1]
  rhsContracting := [0]
  lhsNonContracting := [0]
  rhsNonContracting := [1]
  lhsBatch := []
  rhsBatch := []
  wf := dot_S4000x16000_S16000x128_S4000x128_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S4000x128_S1024x1_S1024x128_1_0_n_n_0_1_1128 : GatherDims S4000x128 S1024x1 S1024x128 where
  offsetDims := [1]
  collapsedSliceDims := [0]
  operandBatchingDims := []
  startIndicesBatchingDims := []
  startIndexMap := [0]
  indexVectorDim := 1
  sliceSizes := ![1, 128]
  wf := gather_S4000x128_S1024x1_S1024x128_1_0_n_n_0_1_1128_wf
def gather_S4000x128_S3500x1_S3500x128_1_0_n_n_0_1_1128 : GatherDims S4000x128 S3500x1 S3500x128 where
  offsetDims := [1]
  collapsedSliceDims := [0]
  operandBatchingDims := []
  startIndicesBatchingDims := []
  startIndexMap := [0]
  indexVectorDim := 1
  sliceSizes := ![1, 128]
  wf := gather_S4000x128_S3500x1_S3500x128_1_0_n_n_0_1_1128_wf
def dot_S1024x3500_S3500x128_S1024x128_1_0_0_1_n_n : DotDims S1024x3500 S3500x128 S1024x128 where
  lhsContracting := [1]
  rhsContracting := [0]
  lhsNonContracting := [0]
  rhsNonContracting := [1]
  lhsBatch := []
  rhsBatch := []
  wf := dot_S1024x3500_S3500x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.PreDecode.lean ====
/-
  What the precondition says of the four index inputs: every word of an index array, read as a signed integer, lies in
  `[-N, N)` for the extent `N` of the axis it indexes (4000 for the two hop-1 arrays, 20000 for the two hop-2 arrays) —
  NumPy's own domain for an index. The precondition is a chain of `and`s whose last four operands are these four
  `jnp.all`s; the float-finiteness operands before them are not opened.
-/
import proofs.«416262_j79216376807521_3_alg».proof.Pre_finite_inputs
import Idealize.ShloMosaic.Lib.Affine
import Idealize.ShloMosaic.Lib.ReduceAll
import Idealize.ShloMosaic.Lib.ValueIdx

namespace Cert.PreDecode

open Idealize.ShloMosaic Cert.Pre_finite_inputs

variable [Cert.Pre_finite_inputs.Facts]

instance : Subsingleton S_.Idx := ⟨fun a b => funext fun d => d.elim0⟩

/-- The four index arrays' ranges, from the precondition at the ideal values. -/
theorem ranges (a0 : FVec Ideal S20000x128 .f32) (a1 : IVec S3500 32) (a2 : IVec S16000 32) (a3 : IVec S1024 32) (a4 : IVec S4000 32)
    (a5 : FVec Ideal S1024x3500 .f32) (a6 : FVec Ideal S4000x16000 .f32) (a7 a8 : FVec Ideal S256x128 .f32)
    (h : fn (F := Ideal) a0 a1 a2 a3 a4 a5 a6 a7 a8 = fun _ => 1#1) :
    (∀ i, -(4000 : Int) ≤ (a1 i).toInt ∧ (a1 i).toInt < 4000) ∧ (∀ i, -(20000 : Int) ≤ (a2 i).toInt ∧ (a2 i).toInt < 20000)
    ∧ (∀ i, -(4000 : Int) ≤ (a3 i).toInt ∧ (a3 i).toInt < 4000) ∧ (∀ i, -(20000 : Int) ≤ (a4 i).toInt ∧ (a4 i).toInt < 20000) := by
  have h0 := congrFun h ValueIdx.ix0
  dsimp only [fn, fn_part1, fn_part2, fn_part3] at h0
  obtain ⟨h0, h4⟩ := IntOp.andi_eq_one.1 h0
  obtain ⟨h0, h3⟩ := IntOp.andi_eq_one.1 h0
  obtain ⟨h0, h2⟩ := IntOp.andi_eq_one.1 h0
  obtain ⟨-, h1⟩ := IntOp.andi_eq_one.1 h0
  have lo4 : (4294963296#32 : BitVec 32).toInt = -4000 := by decide
  have lo2 : (4294947296#32 : BitVec 32).toInt = -20000 := by decide
  have hi4 : (4000#32 : BitVec 32).toInt = 4000 := by decide
  have hi2 : (20000#32 : BitVec 32).toInt = 20000 := by decide
  refine ⟨fun i => ?_, fun i => ?_, fun i => ?_, fun i => ?_⟩
  · obtain ⟨l, u⟩ := IntOp.andi_eq_one.1 (Host.reduce_andi_all _ _ _ _ _ h1 i)
    have l' := IntOp.cmpi_sge.1 l; have u' := IntOp.cmpi_slt.1 u
    exact ⟨lo4 ▸ l', hi4 ▸ u'⟩
  · obtain ⟨l, u⟩ := IntOp.andi_eq_one.1 (Host.reduce_andi_all _ _ _ _ _ h2 i)
    have l' := IntOp.cmpi_sge.1 l; have u' := IntOp.cmpi_slt.1 u
    exact ⟨lo2 ▸ l', hi2 ▸ u'⟩
  · obtain ⟨l, u⟩ := IntOp.andi_eq_one.1 (Host.reduce_andi_all _ _ _ _ _ h3 i)
    have l' := IntOp.cmpi_sge.1 l; have u' := IntOp.cmpi_slt.1 u
    exact ⟨lo4 ▸ l', hi4 ▸ u'⟩
  · obtain ⟨l, u⟩ := IntOp.andi_eq_one.1 (Host.reduce_andi_all _ _ _ _ _ h4 i)
    have l' := IntOp.cmpi_sge.1 l; have u' := IntOp.cmpi_slt.1 u
    exact ⟨lo2 ▸ l', hi2 ▸ u'⟩

end Cert.PreDecode
-- ==== Proof.LibMeanAggregate.lean ====
/-
  One mean-aggregate layer of a graph network at the ideal values: for a diffusion matrix `D` [M × S], gathered source
  rows `src` [S × 128], gathered destination rows `dst` [M × 128] and weights `w` [256 × 128],

      layer D src dst w (r, c) = max (∑ j < 256, cat (r, j) · w (j, c)) 0,
      cat (r, j) = ∑ k < S, D (r, k) · src (k, j)   for j < 128,      cat (r, j) = dst (r, j − 128)   for j ≥ 128.

  Both spellings of it are read here at an index, for any sizes M and S: the host's (two `dot_general`s around a
  `concatenate`, then a maximum against a broadcast zero) and a TensorCore body's (two `tpu.matmul`s into zero
  accumulators around a `tpu.concatenate`, format changes and shape casts that are the identity at the ideal values,
  then `arith.maximumf` against a splat zero). Row `r` of the layer reads only row `r` of `D` and of `dst`
  (`layer_row_congr`), so a block of rows of the result is the layer of the blocks of rows.
-/
import Idealize.ShloMosaic.Lib.ValueIdx
import Idealize.ShloMosaic.Lib.Pipeline.Value
import Idealize.ShloMosaic.PureOps.Ideal.Laws

noncomputable section

open scoped BigOperators

namespace Idealize.ShloMosaic.MeanAggregate

open Idealize.ShloMosaic Idealize.ShloMosaic.ValueIdx

private theorem plain_lhs_0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
private theorem plain_lhs_1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
private theorem plain_rhs_0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
private theorem plain_rhs_1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain dot at (r, c), re-indexed by the one contracted coordinate. -/
private theorem plain_contr_sum {φ₁ φ₂ : FTy} (M K N : Nat)
    (lhs : FVec Ideal ⟨2, ![M, K]⟩ φ₁) (rhs : FVec Ideal ⟨2, ![K, N]⟩ φ₂) (r : Fin M) (c : Fin N) :
    ∑ k : (DotDims.plain M K N).contr.Idx,
        lhs ((DotDims.plain M K N).lhsIdx (ix2 r c) k) * rhs ((DotDims.plain M K N).rhsIdx (ix2 r c) k)
      = ∑ k : Fin K, lhs (ix2 r k) * rhs (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 M K N _ _
      | ⟨1, _⟩ => exact (plain_lhs_1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 M K N _ _).trans hk
      | ⟨1, _⟩ => exact plain_rhs_1 M K N _ _)
  rw [el, er]

/-- A plain [M × K] by [K × N] `tpu.matmul` into the zero accumulator, at the ideal values, read at (r, c). -/
theorem plain_matmul_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  simp only [matmul]
  rw [Ideal.matmul_constant_zero_apply]
  exact plain_contr_sum M K N lhs rhs r c

/-- The host's plain [M × K] by [K × N] `dot_general`, at the ideal values, read at (r, c). -/
theorem plain_dotGeneral_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  simp only [Host.dotGeneral]
  rw [Ideal.dotGeneral_apply]
  exact plain_contr_sum M K N lhs rhs r c

/-- Two pieces [M × A] and [M × B] joined along the columns into [M × C], C = A + B, read at (r, j). -/
theorem concat_cols_apply {α : Type} (M A B C : Nat) (hC : C = A + B) (x : (⟨2, ![M, A]⟩ : Shape).Idx → α)
    (y : (⟨2, ![M, B]⟩ : Shape).Idx → α)
    (h : Shape.Concatenates (([⟨⟨2, ![M, A]⟩, x⟩, ⟨⟨2, ![M, B]⟩, y⟩] : List ((s : Shape) × (s.Idx → α))).map (·.1)) ⟨2, ![M, C]⟩ 1)
    (r : Fin M) (j : Fin C) :
    concatenate ⟨2, ![M, C]⟩ 1 [⟨⟨2, ![M, A]⟩, x⟩, ⟨⟨2, ![M, B]⟩, y⟩] h (ix2 r j)
      = if hj : j.val < A then x (ix2 r ⟨j.val, hj⟩) else y (ix2 r ⟨j.val - A, by omega⟩) := by
  by_cases hj : j.val < A
  · rw [dif_pos hj]
    exact concatenate_apply_piece (t := ⟨2, ![M, C]⟩) 1 _ h (ix2 r j) 0 (by simp) ⟨2, ![M, A]⟩ x rfl rfl 0 rfl
      (ix2 r ⟨j.val, hj⟩)
      (fun b hb => by
        match b with
        | ⟨0, _⟩ => rfl
        | ⟨1, _⟩ => exact absurd rfl hb)
      (by show 0 + j.val = j.val; omega)
  · rw [dif_neg hj]
    exact concatenate_apply_piece (t := ⟨2, ![M, C]⟩) 1 _ h (ix2 r j) 1 (by simp) ⟨2, ![M, B]⟩ y rfl rfl A rfl
      (ix2 r ⟨j.val - A, by omega⟩)
      (fun b hb => by
        match b with
        | ⟨0, _⟩ => rfl
        | ⟨1, _⟩ => exact absurd rfl hb)
      (by show A + (j.val - A) = j.val; omega)

/-- The layer at row `r`, column `c`. -/
def layerAt (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) : EReal :=
  max (∑ j : Fin 256, (if hj : j.val < 128 then ∑ k : Fin S, D (ix2 r k) * src (ix2 k (⟨j.val, hj⟩ : Fin 128))
      else dst (ix2 r (⟨j.val - 128, by omega⟩ : Fin 128))) * w (ix2 j c)) 0

/-- The layer as an array. -/
def layer (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) :
    (⟨2, ![M, 128]⟩ : Shape).Idx → EReal :=
  fun i => layerAt M S D src dst w (i 0) (i 1)

theorem layer_apply (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) :
    layer M S D src dst w (ix2 r c) = layerAt M S D src dst w r c := rfl

/-- Row `r` of the layer reads only row `r` of `D` and of `dst`. -/
theorem layer_row_congr (M M' S : Nat) (D : (⟨2, ![M, S]⟩ : Shape).Idx → EReal) (D' : (⟨2, ![M', S]⟩ : Shape).Idx → EReal)
    (src : (⟨2, ![S, 128]⟩ : Shape).Idx → EReal) (dst : (⟨2, ![M, 128]⟩ : Shape).Idx → EReal)
    (dst' : (⟨2, ![M', 128]⟩ : Shape).Idx → EReal) (w : (⟨2, ![256, 128]⟩ : Shape).Idx → EReal) (r : Fin M) (r' : Fin M') (c : Fin 128)
    (hD : ∀ k : Fin S, D (ix2 r k) = D' (ix2 r' k)) (hdst : ∀ q : Fin 128, dst (ix2 r q) = dst' (ix2 r' q)) :
    layer M S D src dst w (ix2 r c) = layer M' S D' src dst' w (ix2 r' c) := by
  show layerAt M S D src dst w r c = layerAt M' S D' src dst' w r' c
  unfold layerAt
  congr 1
  refine Finset.sum_congr rfl fun j _ => ?_
  congr 1
  by_cases hj : j.val < 128
  · rw [dif_pos hj, dif_pos hj]
    exact Finset.sum_congr rfl fun k _ => by rw [hD k]
  · rw [dif_neg hj, dif_neg hj]
    exact hdst _

/-- The host's spelling is the layer. -/
theorem host_layer_eq (M S : Nat) (D : FVec Ideal ⟨2, ![M, S]⟩ .f32) (src : FVec Ideal ⟨2, ![S, 128]⟩ .f32)
    (dst : FVec Ideal ⟨2, ![M, 128]⟩ .f32) (w : FVec Ideal ⟨2, ![256, 128]⟩ .f32)
    (hcat : Shape.Concatenates (([⟨⟨2, ![M, 128]⟩, Host.dotGeneral (DotDims.plain M S 128) none D src⟩, ⟨⟨2, ![M, 128]⟩, dst⟩] :
      List ((s : Shape) × (s.Idx → EReal))).map (·.1)) ⟨2, ![M, 256]⟩ 1)
    (hb : (⟨0, ![]⟩ : Shape).BroadcastsInDim ⟨2, ![M, 128]⟩ (![] : Fin 0 → Fin 2)) :
    maximumf (Host.dotGeneral (DotDims.plain M 256 128) none
        (concatenate ⟨2, ![M, 256]⟩ 1 [⟨⟨2, ![M, 128]⟩, Host.dotGeneral (DotDims.plain M S 128) none D src⟩, ⟨⟨2, ![M, 128]⟩, dst⟩] hcat) w)
      (broadcastInDim ⟨2, ![M, 128]⟩ ![] hb (constant (F := Ideal) ⟨0, ![]⟩ .f32 0x00000000#32))
      = layer M S D src dst w := by
  funext i
  obtain ⟨r, c, rfl⟩ : ∃ (r : Fin M) (c : Fin 128), i = ix2 r c := ⟨i 0, i 1, eq_ix2 i⟩
  rw [maximumf_apply, plain_dotGeneral_apply, layer_apply]
  unfold layerAt
  congr 1
  · refine Finset.sum_congr rfl fun j _ => ?_
    congr 1
    rw [concat_cols_apply M 128 128 256 rfl]
    by_cases hj : j.val < 128
    · rw [dif_pos hj, dif_pos hj, plain_dotGeneral_apply]
    · rw [dif_neg hj, dif_neg hj]
  · rw [broadcastInDim_apply ![] hb _ (ix2 r c) ix0 (fun a => a.elim0), constant_apply, Ideal.ofBits_zero_f32]

/-- A TensorCore body's spelling is the layer (the bf16 narrowing and the two shape casts to the same shape are the identity
    at the ideal values). -/
theorem kernel_layer_eq (M S : Nat) (x0 : FVec Ideal ⟨2, ![M, S]⟩ .f32) (x1 : FVec Ideal ⟨2, ![S, 128]⟩ .bf16)
    (x2 : FVec Ideal ⟨2, ![M, 128]⟩ .f32) (x3 : FVec Ideal ⟨2, ![256, 128]⟩ .f32) (hlt : FTy.bf16.bits < FTy.f32.bits)
    (hc1 : (⟨2, ![S, 128]⟩ : Shape).ShapeCasts ⟨2, ![S, 128]⟩) (hc2 : (⟨2, ![M, 128]⟩ : Shape).ShapeCasts ⟨2, ![M, 128]⟩)
    (hcat : Shape.Concatenates (([⟨⟨2, ![M, 128]⟩, matmul (DotDims.plain M S 128) none (truncf .bf16 x0 hlt) (shapeCast ⟨2, ![S, 128]⟩ x1 hc1)
        (constant ⟨2, ![M, 128]⟩ .f32 0x00000000#32)⟩, ⟨⟨2, ![M, 128]⟩, shapeCast ⟨2, ![M, 128]⟩ x2 hc2⟩] :
      List ((s : Shape) × (s.Idx → EReal))).map (·.1)) ⟨2, ![M, 256]⟩ 1) :
    maximumf (matmul (DotDims.plain M 256 128) (some .fp32)
        (concatenate ⟨2, ![M, 256]⟩ 1 [⟨⟨2, ![M, 128]⟩, matmul (DotDims.plain M S 128) none (truncf .bf16 x0 hlt) (shapeCast ⟨2, ![S, 128]⟩ x1 hc1)
          (constant ⟨2, ![M, 128]⟩ .f32 0x00000000#32)⟩, ⟨⟨2, ![M, 128]⟩, shapeCast ⟨2, ![M, 128]⟩ x2 hc2⟩] hcat)
        x3 (constant ⟨2, ![M, 128]⟩ .f32 0x00000000#32))
      (broadcast ⟨2, ![M, 128]⟩ (Scalar.ofBits (F := Ideal) .f32 0x00000000#32))
      = layer M S x0 x1 x2 x3 := by
  funext i
  obtain ⟨r, c, rfl⟩ : ∃ (r : Fin M) (c : Fin 128), i = ix2 r c := ⟨i 0, i 1, eq_ix2 i⟩
  rw [maximumf_apply, plain_matmul_zero_apply, layer_apply, broadcast_apply]
  unfold layerAt
  congr 1
  · refine Finset.sum_congr rfl fun j _ => ?_
    congr 1
    rw [concat_cols_apply M 128 128 256 rfl]
    by_cases hj : j.val < 128
    · rw [dif_pos hj, dif_pos hj, plain_matmul_zero_apply]
      refine Finset.sum_congr rfl fun k _ => ?_
      rw [truncf_apply, shapeCast_self]
    · rw [dif_neg hj, dif_neg hj, shapeCast_self]
  · exact Ideal.ofBits_zero_f32

end Idealize.ShloMosaic.MeanAggregate

end
-- ==== Proof.KernelRegion0.lean ====
/-
  The first pallas_call of the idealized kernel (the hop-2 aggregator) as ONE function of the arrays the region finds:
  grid point `t` of 20 stages rows 200·t … 200·t + 199 of the diffusion matrix [4000 × 16000] and of the gathered
  destination rows [4000 × 128], the whole of the gathered source rows [16000 × 128] and of the weights [256 × 128],
  and writes back the same 200 rows of the result. Its body is the mean-aggregate layer on the staged blocks, and a
  row of the layer reads only that row of the matrix and of the destination rows, so what point `t` writes back is
  block `t` of the layer of the whole arrays; the twenty blocks tile the 4000 rows.
-/
import proofs.«416262_j79216376807521_3_alg».proof.Proof.Gen.KernelIdeal.Frame
import proofs.«416262_j79216376807521_3_alg».proof.Proof.LibMeanAggregate
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem
open Idealize.ShloMosaic.Pipeline (Dat)
open Idealize.ShloMosaic.ValueIdx Idealize.ShloMosaic.MeanAggregate
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload is the layer of the staged blocks. -/
theorem pay_eq (x0 : Vec Ideal S200x16000 .f32) (x1 : Vec Ideal S16000x128 .bf16) (x2 : Vec Ideal S200x128 .f32)
    (x3 : Vec Ideal S256x128 .f32) : k0_pay1 x0 x1 x2 x3 = layer 200 16000 x0 x1 x2 x3 :=
  kernel_layer_eq 200 16000 x0 x1 x2 x3 _ _ _ _

/-- The printed index maps over the grid: the row-blocked windows sit at block row `t`, the whole-array windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer of the arrays the region finds. -/
abbrev out (c : Dev nD) : S4000x128.Idx → EReal :=
  layer 4000 16000 (V c main_arg6) (V c main_v2) (V c main_v0) (V c main_arg7)

/-- WHAT POINT `t` WRITES BACK is block `t` of the layer of the whole arrays. -/
theorem flushed_eq (c : Dev nD) (t : Fin cfg0.N) :
    (dat0 V c).flushed 4 t = ((cfg0.win 4).blk t).view.read (Elt Ideal) (out V c) := by
  show (cfg0.win 4).cut (grid0.coords t) ((dat0 V c).after 4 t) = _
  rw [after0_4]
  unfold out0_4
  rw [View.canon_unit_zero hz]
  simp only [View.ld_unit_zero (S := S200x16000) hz, View.ld_unit_zero (S := S16000x128) hz,
    View.ld_unit_zero (S := S200x128) hz, View.ld_unit_zero (S := S256x128) hz]
  rw [pay_eq]
  obtain ⟨e00, e01, e10, e11, e20, e21, e30, e31, e40, e41⟩ := idx_facts t
  have ht : t.val < 20 := lt_of_lt_of_eq t.isLt N_0
  funext j
  obtain ⟨p, q, rfl⟩ : ∃ (p : Fin 200) (q : Fin 128), j = ix2 p q := ⟨j 0, j 1, eq_ix2 j⟩
  show layer 200 16000 (iblk0 V c 0 t) (iblk0 V c 1 t) (iblk0 V c 2 t) (iblk0 V c 3 t) (ix2 p q)
    = out V c (((cfg0.win 4).blk t).view.emb (ix2 p q))
  have hp : p.val < 200 := p.isLt
  -- row p of block t is row 200·t + p of the array
  have he : ((cfg0.win 4).blk t).view.emb (ix2 p q) = ix2 (⟨t.val * 200 + p.val, by omega⟩ : Fin 4000) q := by
    funext a; apply Fin.ext
    match a with
    | ⟨0, _⟩ => show win0_4.index t (0 : Fin 2) * 200 + 1 * p.val = t.val * 200 + p.val; omega
    | ⟨1, _⟩ => show win0_4.index t (1 : Fin 2) * 128 + 1 * q.val = q.val; omega
  rw [he]
  -- the two whole-array windows stage the whole array at every point
  have h1 : (iblk0 V c 1 t : (⟨2, ![16000, 128]⟩ : Shape).Idx → EReal) = V c main_v2 := by
    funext y
    show V c main_v2 (((cfg0.win 1).blk t).view.emb y) = V c main_v2 y
    refine congrArg _ (funext fun a => Fin.ext ?_)
    match a with
    | ⟨0, _⟩ => show win0_1.index t (0 : Fin 2) * 16000 + 1 * (y 0).val = (y 0).val; omega
    | ⟨1, _⟩ => show win0_1.index t (1 : Fin 2) * 128 + 1 * (y 1).val = (y 1).val; omega
  have h3 : (iblk0 V c 3 t : (⟨2, ![256, 128]⟩ : Shape).Idx → EReal) = V c main_arg7 := by
    funext y
    show V c main_arg7 (((cfg0.win 3).blk t).view.emb y) = V c main_arg7 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 128 + 1 * (y 1).val = (y 1).val; omega
  rw [h1, h3]
  refine layer_row_congr 200 4000 16000 _ _ _ _ _ _ p _ q (fun k => ?_) (fun r => ?_)
  · show V c main_arg6 (((cfg0.win 0).blk t).view.emb (ix2 p k)) = V c main_arg6 (ix2 (⟨t.val * 200 + p.val, by omega⟩ : Fin 4000) k)
    refine congrArg _ (funext fun a => Fin.ext ?_)
    match a with
    | ⟨0, _⟩ => show win0_0.index t (0 : Fin 2) * 200 + 1 * p.val = t.val * 200 + p.val; omega
    | ⟨1, _⟩ => show win0_0.index t (1 : Fin 2) * 16000 + 1 * k.val = k.val; omega
  · show V c main_v0 (((cfg0.win 2).blk t).view.emb (ix2 p r)) = V c main_v0 (ix2 (⟨t.val * 200 + p.val, by omega⟩ : Fin 4000) r)
    refine congrArg _ (funext fun a => Fin.ext ?_)
    match a with
    | ⟨0, _⟩ => show win0_2.index t (0 : Fin 2) * 200 + 1 * p.val = t.val * 200 + p.val; omega
    | ⟨1, _⟩ => show win0_2.index t (1 : Fin 2) * 128 + 1 * r.val = r.val; omega

/-- An index of the result array is in point `t`'s block iff each coordinate is in the block's range on its axis. -/
theorem mem_blk (t : Fin cfg0.N) (i : S4000x128.Idx) :
    i ∈ ((cfg0.win 4).blk t).view.set ↔ ∀ a : Fin 2, win0_4.index t a * S200x128.size a ≤ (i a).val ∧ (i a).val < win0_4.index t a * S200x128.size a + S200x128.size a := by
  show i ∈ ((View.whole main_v3).slice (win0_4.rect t)).set ↔ _
  rw [View.set_slice_whole, Rect.mem_set_unit]
  exact Iff.rfl

/-- Row `r` is in the block of point `r / 200`: the twenty blocks tile the array. -/
theorem cover (i : S4000x128.Idx) : ∃ t : Fin cfg0.N, (cfg0.win 4).flush t = true ∧ i ∈ ((cfg0.win 4).blk t).view.set := by
  have hi0 : (i 0).val < 4000 := (i 0).isLt
  have hi1 : (i 1).val < 128 := (i 1).isLt
  let t : Fin cfg0.N := ⟨(i 0).val / 200, lt_of_lt_of_eq (by omega) N_0.symm⟩
  obtain ⟨-, -, -, -, -, -, -, -, e40, e41⟩ := idx_facts t
  have htv : t.val = (i 0).val / 200 := rfl
  refine ⟨t, flush0_4 t, ?_⟩
  rw [mem_blk]
  intro a
  match a with
  | ⟨0, _⟩ => show win0_4.index t (0 : Fin 2) * 200 ≤ (i 0).val ∧ (i 0).val < win0_4.index t (0 : Fin 2) * 200 + 200; omega
  | ⟨1, _⟩ => show win0_4.index t (1 : Fin 2) * 128 ≤ (i 1).val ∧ (i 1).val < win0_4.index t (1 : Fin 2) * 128 + 128; omega

/-- THE RESULT ARRAY after the region: the layer of the arrays the region finds. -/
theorem final (c : Dev nD) : (dat0 V c).arrAt 4 cfg0.N = out V c :=
  (dat0 V c).arrAt_eq_of_cover 4 (out V c) (fun t _ => flushed_eq V c t) cover

end Cert.KernelIdeal.Region0

end
-- ==== Proof.KernelRegion1.lean ====
/-
  The second pallas_call of the idealized kernel (the hop-1 aggregator) as ONE function of the arrays the region finds:
  grid point `t` of 2 stages rows 512·t … 512·t + 511 of the diffusion matrix [1024 × 3500] and of the gathered
  destination rows [1024 × 128], the whole of the gathered source rows [3500 × 128] and of the weights [256 × 128],
  and writes back the same 512 rows of the result. Its body is the mean-aggregate layer on the staged blocks, and a
  row of the layer reads only that row of the matrix and of the destination rows, so what point `t` writes back is
  block `t` of the layer of the whole arrays; the two blocks tile the 1024 rows.
-/
import proofs.«416262_j79216376807521_3_alg».proof.Proof.Gen.KernelIdeal.Frame
import proofs.«416262_j79216376807521_3_alg».proof.Proof.LibMeanAggregate
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem
open Idealize.ShloMosaic.Pipeline (Dat)
open Idealize.ShloMosaic.ValueIdx Idealize.ShloMosaic.MeanAggregate
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload is the layer of the staged blocks. -/
theorem pay_eq (x0 : Vec Ideal S512x3500 .f32) (x1 : Vec Ideal S3500x128 .bf16) (x2 : Vec Ideal S512x128 .f32)
    (x3 : Vec Ideal S256x128 .f32) : k1_pay1 x0 x1 x2 x3 = layer 512 3500 x0 x1 x2 x3 :=
  kernel_layer_eq 512 3500 x0 x1 x2 x3 _ _ _ _

/-- The printed index maps over the grid: the row-blocked windows sit at block row `t`, the whole-array windows at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The layer of the arrays the region finds. -/
abbrev out (c : Dev nD) : S1024x128.Idx → EReal :=
  layer 1024 3500 (V c main_arg5) (V c main_v6) (V c main_v4) (V c main_arg8)

/-- WHAT POINT `t` WRITES BACK is block `t` of the layer of the whole arrays. -/
theorem flushed_eq (c : Dev nD) (t : Fin cfg1.N) :
    (dat1 V c).flushed 4 t = ((cfg1.win 4).blk t).view.read (Elt Ideal) (out V c) := by
  show (cfg1.win 4).cut (grid1.coords t) ((dat1 V c).after 4 t) = _
  rw [after1_4]
  unfold out1_4
  rw [View.canon_unit_zero hz]
  simp only [View.ld_unit_zero (S := S512x3500) hz, View.ld_unit_zero (S := S3500x128) hz,
    View.ld_unit_zero (S := S512x128) hz, View.ld_unit_zero (S := S256x128) hz]
  rw [pay_eq]
  obtain ⟨e00, e01, e10, e11, e20, e21, e30, e31, e40, e41⟩ := idx_facts t
  have ht : t.val < 2 := lt_of_lt_of_eq t.isLt N_1
  funext j
  obtain ⟨p, q, rfl⟩ : ∃ (p : Fin 512) (q : Fin 128), j = ix2 p q := ⟨j 0, j 1, eq_ix2 j⟩
  show layer 512 3500 (iblk1 V c 0 t) (iblk1 V c 1 t) (iblk1 V c 2 t) (iblk1 V c 3 t) (ix2 p q)
    = out V c (((cfg1.win 4).blk t).view.emb (ix2 p q))
  have hp : p.val < 512 := p.isLt
  -- row p of block t is row 512·t + p of the array
  have he : ((cfg1.win 4).blk t).view.emb (ix2 p q) = ix2 (⟨t.val * 512 + p.val, by omega⟩ : Fin 1024) q := by
    funext a; apply Fin.ext
    match a with
    | ⟨0, _⟩ => show win1_4.index t (0 : Fin 2) * 512 + 1 * p.val = t.val * 512 + p.val; omega
    | ⟨1, _⟩ => show win1_4.index t (1 : Fin 2) * 128 + 1 * q.val = q.val; omega
  rw [he]
  -- the two whole-array windows stage the whole array at every point
  have h1 : (iblk1 V c 1 t : (⟨2, ![3500, 128]⟩ : Shape).Idx → EReal) = V c main_v6 := by
    funext y
    show V c main_v6 (((cfg1.win 1).blk t).view.emb y) = V c main_v6 y
    refine congrArg _ (funext fun a => Fin.ext ?_)
    match a with
    | ⟨0, _⟩ => show win1_1.index t (0 : Fin 2) * 3500 + 1 * (y 0).val = (y 0).val; omega
    | ⟨1, _⟩ => show win1_1.index t (1 : Fin 2) * 128 + 1 * (y 1).val = (y 1).val; omega
  have h3 : (iblk1 V c 3 t : (⟨2, ![256, 128]⟩ : Shape).Idx → EReal) = V c main_arg8 := by
    funext y
    show V c main_arg8 (((cfg1.win 3).blk t).view.emb y) = V c main_arg8 y
    refine congrArg _ (funext fun a => Fin.ext ?_)
    match a with
    | ⟨0, _⟩ => show win1_3.index t (0 : Fin 2) * 256 + 1 * (y 0).val = (y 0).val; omega
    | ⟨1, _⟩ => show win1_3.index t (1 : Fin 2) * 128 + 1 * (y 1).val = (y 1).val; omega
  rw [h1, h3]
  refine layer_row_congr 512 1024 3500 _ _ _ _ _ _ p _ q (fun k => ?_) (fun r => ?_)
  · show V c main_arg5 (((cfg1.win 0).blk t).view.emb (ix2 p k)) = V c main_arg5 (ix2 (⟨t.val * 512 + p.val, by omega⟩ : Fin 1024) k)
    refine congrArg _ (funext fun a => Fin.ext ?_)
    match a with
    | ⟨0, _⟩ => show win1_0.index t (0 : Fin 2) * 512 + 1 * p.val = t.val * 512 + p.val; omega
    | ⟨1, _⟩ => show win1_0.index t (1 : Fin 2) * 3500 + 1 * k.val = k.val; omega
  · show V c main_v4 (((cfg1.win 2).blk t).view.emb (ix2 p r)) = V c main_v4 (ix2 (⟨t.val * 512 + p.val, by omega⟩ : Fin 1024) r)
    refine congrArg _ (funext fun a => Fin.ext ?_)
    match a with
    | ⟨0, _⟩ => show win1_2.index t (0 : Fin 2) * 512 + 1 * p.val = t.val * 512 + p.val; omega
    | ⟨1, _⟩ => show win1_2.index t (1 : Fin 2) * 128 + 1 * r.val = r.val; omega

/-- An index of the result array is in point `t`'s block iff each coordinate is in the block's range on its axis. -/
theorem mem_blk (t : Fin cfg1.N) (i : S1024x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v7).slice (win1_4.rect t)).set ↔ _
  rw [View.set_slice_whole, Rect.mem_set_unit]
  exact Iff.rfl

/-- Row `r` is in the block of point `r / 512`: the two blocks tile the array. -/
theorem cover (i : S1024x128.Idx) : ∃ t : Fin cfg1.N, (cfg1.win 4).flush t = true ∧ i ∈ ((cfg1.win 4).blk t).view.set := by
  have hi0 : (i 0).val < 1024 := (i 0).isLt
  have hi1 : (i 1).val < 128 := (i 1).isLt
  let t : Fin cfg1.N := ⟨(i 0).val / 512, lt_of_lt_of_eq (by omega) N_1.symm⟩
  obtain ⟨-, -, -, -, -, -, -, -, e40, e41⟩ := idx_facts t
  have htv : t.val = (i 0).val / 512 := rfl
  refine ⟨t, flush1_4 t, ?_⟩
  rw [mem_blk]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 128 ≤ (i 1).val ∧ (i 1).val < win1_4.index t (1 : Fin 2) * 128 + 128; omega

/-- THE RESULT ARRAY after the region: the layer of the arrays the region finds. -/
theorem final (c : Dev nD) : (dat1 V c).arrAt 4 cfg1.N = out V c :=
  (dat1 V c).arrAt_eq_of_cover 4 (out V c) (fun t _ => flushed_eq V c t) cover

end Cert.KernelIdeal.Region1

end
-- ==== Proof.LibTakeFill.lean ====
/-
  `jnp.take` in its default mode ("fill") against plain indexing `x[idx]`, on the host.

  Both spellings first wrap a negative index word `v` to `v + N` (`N` the indexed axis's extent). Plain indexing then
  gathers. `jnp.take` also gathers, but it keeps the gathered value only where the wrapped word `w` passes the range
  test `0 ≤ w ∧ w ≤ N - 1` (an `and`-reduction of the test over the start-index vector's one component) and puts a fill
  value elsewhere. When every index word lies in `[-N, N)` — NumPy's own domain for the axis — every wrapped word is
  in `[0, N)`, the test passes everywhere, and the select is its first branch: the two spellings are one term.

  Stated over the library only: the wrap of one word (`wrapWord_range`), an `and`-reduction of all-ones
  (`reduce_andi_of_all`), a select under an all-ones mask (`select_of_all_one`), the range test's mask
  (`rangeMask_all_one`), and the two spellings as they print (`take_fill_eq_gather`).
-/
import Idealize.ShloMosaic.Lib.Affine
import Idealize.ShloMosaic.Lib.ReduceAll
import Idealize.ShloMosaic.Lib.ValueIdx
import Idealize.ShloMosaic.PureOps

namespace Idealize.ShloMosaic.TakeFill

open Idealize.ShloMosaic

/-- NumPy's wrap of one index word on an axis of extent `N`: `v + N` when `v` is negative, else `v`. -/
def wrapWord (N v : BitVec 32) : BitVec 32 := Scalar.select (IntOp.cmpi .slt v 0#32) (IntOp.addi v N) v

/-- A word in `[-N, N)` wraps into `[0, N)` (no 32-bit overflow for an extent below 2³⁰). -/
theorem wrapWord_range (N : Nat) (hN : N < 2 ^ 30) (v : BitVec 32) (h1 : -(N : Int) ≤ v.toInt) (h2 : v.toInt < N) :
    0 ≤ (wrapWord (BitVec.ofNat 32 N) v).toInt ∧ (wrapWord (BitVec.ofNat 32 N) v).toInt < N := by
  have hNi : (BitVec.ofNat 32 N).toInt = N := by
    rw [BitVec.toInt_ofNat']; unfold Int.bmod; dsimp only; split <;> omega
  unfold wrapWord
  by_cases hv : v.toInt < 0
  · have hc : IntOp.cmpi .slt v 0#32 = 1#1 := IntOp.cmpi_slt.2 (by simpa using hv)
    rw [hc, ValueIdx.select_one]
    have : (IntOp.addi v (BitVec.ofNat 32 N)).toInt = v.toInt + N := by
      unfold IntOp.addi; rw [BitVec.toInt_add, hNi]; unfold Int.bmod; dsimp only; split <;> omega
    omega
  · have hc : IntOp.cmpi .slt v 0#32 = 0#1 :=
      ValueIdx.eq_zero_of_ne_one fun h => hv (by simpa using IntOp.cmpi_slt.1 h)
    rw [hc, ValueIdx.select_zero]
    omega

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_of_all f l _ (IntOp.andi_eq_one.2 ⟨h, hl a (List.mem_cons_self ..)⟩)
      fun n hn => hl n (List.mem_cons_of_mem _ hn)

/-- `jnp.all` along any axes of an all-ones mask, from the initial value 1, is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_of_all x _ _ (hinit _) fun n _ => hx n

/-- A select whose mask is 1 everywhere is its first branch. -/
theorem select_of_all_one {α : Type} {s : Shape} (c : IVec s 1) (a b : s.Idx → α) (hc : ∀ i, c i = 1#1) : select c a b = a := by
  funext i
  rw [ValueIdx.select_apply, hc i, ValueIdx.select_one]

/-- The range test `lo ≤ w ∧ w ≤ hi` (signed), `and`-reduced along any axes and broadcast along any axes, is 1 everywhere
    when every word of `w` passes it. -/
theorem rangeMask_all_one {s t u r : Shape} {axes : List (Fin s.rank)} (w lo hi : IVec s 32) (init : u.Idx → BitVec 1)
    (h : s.ReducesTo axes t) (hu : 0 < u.numel) (dims : Fin t.rank → Fin r.rank) (hb : t.BroadcastsInDim r dims)
    (hinit : ∀ k, init k = 1#1) (hlo : ∀ i, (lo i).toInt ≤ (w i).toInt) (hhi : ∀ i, (w i).toInt ≤ (hi i).toInt) (j : r.Idx) :
    broadcastInDim r dims hb (Host.reduce IntOp.andi (andi (cmpi .sge w lo) (cmpi .sle w hi)) init h hu) j = 1#1 := by
  unfold broadcastInDim
  exact reduce_andi_of_all _ _ h hu hinit
    (fun i => IntOp.andi_eq_one.2 ⟨IntOp.cmpi_sge.2 (hlo i), IntOp.cmpi_sle.2 (hhi i)⟩) _

/-- The start-index column both spellings gather with: the index words wrapped, laid out along `dims₁`. -/
def wrapped {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) : IVec s₂ 32 :=
  broadcastInDim s₂ dims₁ b₁ (select (cmpi .slt idx (broadcastInDim s₁ dims₀ b₀ (constantI ⟨0, ![]⟩ 32 0#32)))
    (addi idx (broadcastInDim s₁ dims₀ b₀' (constantI ⟨0, ![]⟩ 32 (BitVec.ofNat 32 N)))) idx)

/-- Every word of the start-index column is the wrap of an index word. -/
theorem wrapped_apply {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) (i : s₂.Idx) : ∃ k : s₁.Idx, wrapped N dims₀ b₀ b₀' dims₁ b₁ idx i = wrapWord (BitVec.ofNat 32 N) (idx k) :=
  ⟨_, rfl⟩

/-- `jnp.take(x, idx, axis = 0)` in fill mode as it prints: the rows gathered at the wrapped start indices where the range
    test `lo ≤ w ∧ w ≤ hi` holds of the wrapped word (reduced by `and` along `axes` from `init`, broadcast along `dims₅`),
    the fill value elsewhere. -/
def takeFill {α : Type} {sx s₁ s₂ s₃ so u : Shape} {axes : List (Fin s₂.rank)} (d : GatherDims sx s₂ so)
    (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (init : u.Idx → BitVec 1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32) : so.Idx → α :=
  select (broadcastInDim so dims₅ b₅ (Host.reduce IntOp.andi
      (andi (cmpi .sge (wrapped N dims₀ b₀ b₀' dims₁ b₁ idx) lo) (cmpi .sle (wrapped N dims₀ b₀ b₀' dims₁ b₁ idx) hi)) init hred hu))
    (Host.gather d x (wrapped N dims₀ b₀ b₀' dims₁ b₁ idx)) fill

/-- **`jnp.take` in fill mode is the plain gather on in-range indices.** With every index word in `[-N, N)` the range
    test `0 ≤ w ≤ N − 1` of the wrapped start indices passes everywhere, so the select between the gathered rows and the
    fill value is the gathered rows. (`lo` and `hi` are the two bounds as they are broadcast; `init` the reduction's 1.) -/
theorem take_fill_eq_gather {α : Type} {sx s₁ s₂ s₃ so u : Shape} {axes : List (Fin s₂.rank)} (d : GatherDims sx s₂ so)
    (N : Nat) (hN : N < 2 ^ 30) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (hlo : ∀ i, (lo i).toInt = 0) (hhi : ∀ i, (hi i).toInt = (N : Int) - 1)
    (init : u.Idx → BitVec 1) (hinit : ∀ k, init k = 1#1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32)
    (hr : ∀ k, -(N : Int) ≤ (idx k).toInt ∧ (idx k).toInt < N) :
    takeFill d N dims₀ b₀ b₀' dims₁ b₁ lo hi init hred hu dims₅ b₅ x fill idx
      = Host.gather d x (wrapped N dims₀ b₀ b₀' dims₁ b₁ idx) := by
  unfold takeFill
  refine select_of_all_one _ _ _ fun j => rangeMask_all_one _ lo hi init hred hu dims₅ b₅ hinit (fun i => ?_) (fun i => ?_) j
  · obtain ⟨k, hk⟩ := wrapped_apply N dims₀ b₀ b₀' dims₁ b₁ idx i
    rw [hk, hlo i]; exact (wrapWord_range N hN _ (hr k).1 (hr k).2).1
  · obtain ⟨k, hk⟩ := wrapped_apply N dims₀ b₀ b₀' dims₁ b₁ idx i
    rw [hk, hhi i]; have := (wrapWord_range N hN _ (hr k).1 (hr k).2).2; omega

end Idealize.ShloMosaic.TakeFill
-- ==== Proof.Spec.lean ====
/-
  The two-layer network both programs compute, as one function of the nine argument arrays, at the ideal values:

      hop2   = layer (dif_mat_2) (src_nodes[wrap idx_src_2]) (src_nodes[wrap idx_dst_2]) w1          [4000 × 128]
      result = layer (dif_mat_1) (hop2[wrap idx_src_1]) (hop2[wrap idx_dst_1]) w2                    [1024 × 128]

  where `layer D src dst w = max ([D · src ‖ dst] · w) 0`, `x[col]` is the row gather of `x` at the start-index column
  `col`, and `wrap` sends a negative index word `v` to `v + N` (`N` the gathered axis's extent: 20000 and 4000).
-/
import proofs.«416262_j79216376807521_3_alg».proof.Proof.Gen.KernelIdeal
import proofs.«416262_j79216376807521_3_alg».proof.Proof.LibTakeFill
import proofs.«416262_j79216376807521_3_alg».proof.Proof.LibMeanAggregate

noncomputable section

namespace Cert.Spec

open Idealize.ShloMosaic Idealize.ShloMosaic.TakeFill Idealize.ShloMosaic.MeanAggregate
open Cert.KernelIdeal Cert.KernelIdeal.Facts₀ Cert.KernelIdeal.Facts

/-- The wrapped start-index columns of the four gathers. -/
abbrev colD2 (a4 : IVec S4000 32) : IVec S4000x1 32 := wrapped 20000 ![] bcast_S_S4000 bcast_S_S4000 ![0] bcast_S4000_S4000x1_0 a4
abbrev colS2 (a2 : IVec S16000 32) : IVec S16000x1 32 := wrapped 20000 ![] bcast_S_S16000 bcast_S_S16000 ![0] bcast_S16000_S16000x1_0 a2
abbrev colD1 (a3 : IVec S1024 32) : IVec S1024x1 32 := wrapped 4000 ![] bcast_S_S1024 bcast_S_S1024 ![0] bcast_S1024_S1024x1_0 a3
abbrev colS1 (a1 : IVec S3500 32) : IVec S3500x1 32 := wrapped 4000 ![] bcast_S_S3500 bcast_S_S3500 ![0] bcast_S3500_S3500x1_0 a1

/-- The hop-2 layer's output [4000 × 128]. -/
def hop2 (a0 : S20000x128.Idx → EReal) (a2 : IVec S16000 32) (a4 : IVec S4000 32) (a6 : S4000x16000.Idx → EReal)
    (a7 : S256x128.Idx → EReal) : S4000x128.Idx → EReal :=
  layer 4000 16000 a6 (Host.gather gather_S20000x128_S16000x1_S16000x128_1_0_n_n_0_1_1128 a0 (colS2 a2)) (Host.gather gather_S20000x128_S4000x1_S4000x128_1_0_n_n_0_1_1128 a0 (colD2 a4)) a7

/-- The network's output [1024 × 128]. -/
def result (a0 : S20000x128.Idx → EReal) (a1 : IVec S3500 32) (a2 : IVec S16000 32) (a3 : IVec S1024 32) (a4 : IVec S4000 32)
    (a5 : S1024x3500.Idx → EReal) (a6 : S4000x16000.Idx → EReal) (a7 a8 : S256x128.Idx → EReal) : S1024x128.Idx → EReal :=
  layer 1024 3500 a5 (Host.gather gather_S4000x128_S3500x1_S3500x128_1_0_n_n_0_1_1128 (hop2 a0 a2 a4 a6 a7) (colS1 a1)) (Host.gather gather_S4000x128_S1024x1_S1024x128_1_0_n_n_0_1_1128 (hop2 a0 a2 a4 a6 a7) (colD1 a3)) a8

end Cert.Spec

end
-- ==== Proof.KernelValue.lean ====
/-
  What the idealized kernel leaves in its result buffer, as one function of the nine argument arrays.

  The program is two pallas_calls among host operations. Before each call the host gathers rows with `jnp.take`
  (destination rows as they are, source rows then narrowed to bf16, which is the identity at the ideal values); on
  in-range indices a fill-mode take is the plain gather of the wrapped indices. Each call leaves the mean-aggregate
  layer of the arrays it finds. So with `hop2` the first call's result,

      hop2   = layer (dif_mat_2) (src_nodes[wrap idx_src_2]) (src_nodes[wrap idx_dst_2]) w1
      result = layer (dif_mat_1) (hop2[wrap idx_src_1]) (hop2[wrap idx_dst_1]) w2 .
-/
import proofs.«416262_j79216376807521_3_alg».proof.Proof.FrameValue
import proofs.«416262_j79216376807521_3_alg».proof.Proof.KernelRegion0
import proofs.«416262_j79216376807521_3_alg».proof.Proof.KernelRegion1
import proofs.«416262_j79216376807521_3_alg».proof.Proof.LibTakeFill
import proofs.«416262_j79216376807521_3_alg».proof.Proof.Spec
import Idealize.ShloMosaic.Lib.StableHlo.Run

set_option maxRecDepth 16384
set_option maxHeartbeats 1000000

noncomputable section

namespace Cert.KernelIdeal.Result

open Idealize.ShloMosaic Idealize.ShloMosaic.TcCoe Idealize.SL.Sem Idealize.ShloMosaic.StableHlo
open Idealize.ShloMosaic.TakeFill Idealize.ShloMosaic.MeanAggregate
open Cert.KernelIdeal Cert.KernelIdeal.Gen Cert.Spec

/-! ## The arrays each region finds -/

variable (m : (ℓ : Loc nD τ sig) → Buf (Elt Ideal) ℓ) (ρ : Dev nD → PrngReg)

theorem V3_arg6 (c : Dev nD) : V3 m ρ c main_arg6 = m ((c : Thread nD τ).loc main_arg6) := by
  show StableHlo.after hostOps0_2 (StableHlo.after hostOps0_1 (StableHlo.after hostOps0 (W0 m ρ c))) (Proc.devRef .tc main_arg6) = _
  after_results

theorem V3_arg7 (c : Dev nD) : V3 m ρ c main_arg7 = m ((c : Thread nD τ).loc main_arg7) := by
  show StableHlo.after hostOps0_2 (StableHlo.after hostOps0_1 (StableHlo.after hostOps0 (W0 m ρ c))) (Proc.devRef .tc main_arg7) = _
  after_results

/-- The hop-2 destination rows, as the host leaves them: the fill-mode take of `src_nodes` at `dstsrc2dst_2`. -/
theorem V3_v0_raw (c : Dev nD) : V3 m ρ c main_v0 = takeFill (α := EReal) gather_S20000x128_S4000x1_S4000x128_1_0_n_n_0_1_1128 20000 ![] bcast_S_S4000 bcast_S_S4000 ![0] bcast_S4000_S4000x1_0
      (broadcastInDim S4000x1 ![] bcast_S_S4000x1 (constantI S_ 32 0#32))
      (broadcastInDim S4000x1 ![0, 1] bcast_S1x1_S4000x1_0_1 (broadcastInDim S1x1 ![1] bcast_S1_S1x1_1 (constantI S1 32 19999#32)))
      (constantI S_ 1 1#1) reducesTo_S4000x1_S4000_d1 h_S_ ![0] bcast_S4000_S4000x128_0
      (m ((c : Thread nD τ).loc main_arg0) : S20000x128.Idx → EReal)
      (broadcastInDim S4000x128 ![] bcast_S_S4000x128 (constant (F := Ideal) S_ .f32 0x7FC00000#32))
      (m ((c : Thread nD τ).loc main_arg4)) := by
  show StableHlo.after hostOps0_2 (StableHlo.after hostOps0_1 (StableHlo.after hostOps0 (W0 m ρ c))) (Proc.devRef .tc main_v0) = _
  after_results_simp
  rfl

/-- The hop-2 source rows: the fill-mode take of `src_nodes` at `dstsrc2src_2`, then narrowed to bf16 — the identity here. -/
theorem V3_v2_raw (c : Dev nD) : V3 m ρ c main_v2 = takeFill (α := EReal) gather_S20000x128_S16000x1_S16000x128_1_0_n_n_0_1_1128 20000 ![] bcast_S_S16000 bcast_S_S16000 ![0] bcast_S16000_S16000x1_0
      (broadcastInDim S16000x1 ![] bcast_S_S16000x1 (constantI S_ 32 0#32))
      (broadcastInDim S16000x1 ![0, 1] bcast_S1x1_S16000x1_0_1 (broadcastInDim S1x1 ![1] bcast_S1_S1x1_1 (constantI S1 32 19999#32)))
      (constantI S_ 1 1#1) reducesTo_S16000x1_S16000_d1 h_S_ ![0] bcast_S16000_S16000x128_0
      (m ((c : Thread nD τ).loc main_arg0) : S20000x128.Idx → EReal)
      (broadcastInDim S16000x128 ![] bcast_S_S16000x128 (constant (F := Ideal) S_ .f32 0x7FC00000#32))
      (m ((c : Thread nD τ).loc main_arg2)) := by
  show StableHlo.after hostOps0_2 (StableHlo.after hostOps0_1 (StableHlo.after hostOps0 (W0 m ρ c))) (Proc.devRef .tc main_v2) = _
  after_results_simp
  rfl

theorem int_cast_range {N : Nat} {v : Int} (Ni : Int) (hN : Ni = N) (h : -Ni ≤ v ∧ v < Ni) : -(N : Int) ≤ v ∧ v < N := by
  subst hN; exact h

theorem V3_v0 (c : Dev nD) (hr : (∀ k, -(20000 : Int) ≤ ((m ((c : Thread nD τ).loc main_arg4)) k).toInt ∧ ((m ((c : Thread nD τ).loc main_arg4)) k).toInt < 20000)) :
    V3 m ρ c main_v0 = Host.gather gather_S20000x128_S4000x1_S4000x128_1_0_n_n_0_1_1128 (m ((c : Thread nD τ).loc main_arg0)) (colD2 (m ((c : Thread nD τ).loc main_arg4))) :=
  (V3_v0_raw m ρ c).trans (take_fill_eq_gather gather_S20000x128_S4000x1_S4000x128_1_0_n_n_0_1_1128 20000 (by norm_num) _ _ _ _ _ _ _ (fun _ => rfl) (fun _ => (by decide : (BitVec.ofNat 32 19999).toInt = ((20000 : Nat) : Int) - 1)) _ (fun _ => rfl) _ _ _ _ _ _ _ fun k => int_cast_range 20000 (by norm_num) (hr k))

theorem V3_v2 (c : Dev nD) (hr : (∀ k, -(20000 : Int) ≤ ((m ((c : Thread nD τ).loc main_arg2)) k).toInt ∧ ((m ((c : Thread nD τ).loc main_arg2)) k).toInt < 20000)) :
    V3 m ρ c main_v2 = Host.gather gather_S20000x128_S16000x1_S16000x128_1_0_n_n_0_1_1128 (m ((c : Thread nD τ).loc main_arg0)) (colS2 (m ((c : Thread nD τ).loc main_arg2))) :=
  (V3_v2_raw m ρ c).trans (take_fill_eq_gather gather_S20000x128_S16000x1_S16000x128_1_0_n_n_0_1_1128 20000 (by norm_num) _ _ _ _ _ _ _ (fun _ => rfl) (fun _ => (by decide : (BitVec.ofNat 32 19999).toInt = ((20000 : Nat) : Int) - 1)) _ (fun _ => rfl) _ _ _ _ _ _ _ fun k => int_cast_range 20000 (by norm_num) (hr k))

/-- THE FIRST CALL'S RESULT ARRAY, at its exit: the hop-2 layer's output of the argument arrays. -/
theorem W4_v3 (c : Dev nD) (h2 : (∀ k, -(20000 : Int) ≤ ((m ((c : Thread nD τ).loc main_arg2)) k).toInt ∧ ((m ((c : Thread nD τ).loc main_arg2)) k).toInt < 20000)) (h4 : (∀ k, -(20000 : Int) ≤ ((m ((c : Thread nD τ).loc main_arg4)) k).toInt ∧ ((m ((c : Thread nD τ).loc main_arg4)) k).toInt < 20000)) :
    W4 m ρ c (Proc.devRef .tc main_v3) = hop2 (m ((c : Thread nD τ).loc main_arg0)) (m ((c : Thread nD τ).loc main_arg2)) (m ((c : Thread nD τ).loc main_arg4)) (m ((c : Thread nD τ).loc main_arg6)) (m ((c : Thread nD τ).loc main_arg7)) := by
  refine (W4_arr m ρ c 4).trans ((Region0.final (V3 m ρ) c).trans ?_)
  show MeanAggregate.layer 4000 16000 (V3 m ρ c main_arg6) (V3 m ρ c main_v2) (V3 m ρ c main_v0) (V3 m ρ c main_arg7) = _
  rw [V3_arg6, V3_arg7, V3_v0 m ρ c h4, V3_v2 m ρ c h2]
  rfl

/-! Argument arrays the second call's stretch reads are still as launched at the first call's exit (no host operation
    and no window of the first call writes them). -/

theorem W4_arg1 (c : Dev nD) : W4 m ρ c (Proc.devRef .tc main_arg1) = (m ((c : Thread nD τ).loc main_arg1)) := by
  refine (W4_of_ne m ρ c main_arg1 (by decide)).trans ?_
  show StableHlo.after hostOps0_2 (StableHlo.after hostOps0_1 (StableHlo.after hostOps0 (W0 m ρ c))) (Proc.devRef .tc main_arg1) = _
  after_results_simp

theorem W4_arg3 (c : Dev nD) : W4 m ρ c (Proc.devRef .tc main_arg3) = (m ((c : Thread nD τ).loc main_arg3)) := by
  refine (W4_of_ne m ρ c main_arg3 (by decide)).trans ?_
  show StableHlo.after hostOps0_2 (StableHlo.after hostOps0_1 (StableHlo.after hostOps0 (W0 m ρ c))) (Proc.devRef .tc main_arg3) = _
  after_results_simp

theorem W4_arg5 (c : Dev nD) : W4 m ρ c (Proc.devRef .tc main_arg5) = (m ((c : Thread nD τ).loc main_arg5)) := by
  refine (W4_of_ne m ρ c main_arg5 (by decide)).trans ?_
  show StableHlo.after hostOps0_2 (StableHlo.after hostOps0_1 (StableHlo.after hostOps0 (W0 m ρ c))) (Proc.devRef .tc main_arg5) = _
  after_results_simp

theorem W4_arg8 (c : Dev nD) : W4 m ρ c (Proc.devRef .tc main_arg8) = (m ((c : Thread nD τ).loc main_arg8)) := by
  refine (W4_of_ne m ρ c main_arg8 (by decide)).trans ?_
  show StableHlo.after hostOps0_2 (StableHlo.after hostOps0_1 (StableHlo.after hostOps0 (W0 m ρ c))) (Proc.devRef .tc main_arg8) = _
  after_results_simp

/-! The second call's stretch of host operations from ANY entry contents `W` (so that nothing about the first call's
    write-backs is opened): what it leaves in the second call's four input arrays. -/

theorem stretch1_arg5 (W : Valuation τ sig (Elt Ideal)) :
    StableHlo.after hostOps1_2 (StableHlo.after hostOps1_1 (StableHlo.after hostOps1 W)) (Proc.devRef .tc main_arg5) = W (Proc.devRef .tc main_arg5) := by
  after_results_simp

theorem stretch1_arg8 (W : Valuation τ sig (Elt Ideal)) :
    StableHlo.after hostOps1_2 (StableHlo.after hostOps1_1 (StableHlo.after hostOps1 W)) (Proc.devRef .tc main_arg8) = W (Proc.devRef .tc main_arg8) := by
  after_results_simp

/-- The hop-1 destination rows: the fill-mode take of the first call's result at `dstsrc2dst_1`. -/
theorem stretch1_v4 (W : Valuation τ sig (Elt Ideal)) :
    StableHlo.after hostOps1_2 (StableHlo.after hostOps1_1 (StableHlo.after hostOps1 W)) (Proc.devRef .tc main_v4)
      = takeFill (α := EReal) gather_S4000x128_S1024x1_S1024x128_1_0_n_n_0_1_1128 4000 ![] bcast_S_S1024 bcast_S_S1024 ![0] bcast_S1024_S1024x1_0
      (broadcastInDim S1024x1 ![] bcast_S_S1024x1 (constantI S_ 32 0#32))
      (broadcastInDim S1024x1 ![0, 1] bcast_S1x1_S1024x1_0_1 (broadcastInDim S1x1 ![1] bcast_S1_S1x1_1 (constantI S1 32 3999#32)))
      (constantI S_ 1 1#1) reducesTo_S1024x1_S1024_d1 h_S_ ![0] bcast_S1024_S1024x128_0
      (W (Proc.devRef .tc main_v3) : S4000x128.Idx → EReal)
      (broadcastInDim S1024x128 ![] bcast_S_S1024x128 (constant (F := Ideal) S_ .f32 0x7FC00000#32))
      (W (Proc.devRef .tc main_arg3)) := by
  after_results_simp
  rfl

/-- The hop-1 source rows: the fill-mode take of the first call's result at `dstsrc2src_1`, then narrowed to bf16. -/
theorem stretch1_v6 (W : Valuation τ sig (Elt Ideal)) :
    StableHlo.after hostOps1_2 (StableHlo.after hostOps1_1 (StableHlo.after hostOps1 W)) (Proc.devRef .tc main_v6)
      = takeFill (α := EReal) gather_S4000x128_S3500x1_S3500x128_1_0_n_n_0_1_1128 4000 ![] bcast_S_S3500 bcast_S_S3500 ![0] bcast_S3500_S3500x1_0
      (broadcastInDim S3500x1 ![] bcast_S_S3500x1 (constantI S_ 32 0#32))
      (broadcastInDim S3500x1 ![0, 1] bcast_S1x1_S3500x1_0_1 (broadcastInDim S1x1 ![1] bcast_S1_S1x1_1 (constantI S1 32 3999#32)))
      (constantI S_ 1 1#1) reducesTo_S3500x1_S3500_d1 h_S_ ![0] bcast_S3500_S3500x128_0
      (W (Proc.devRef .tc main_v3) : S4000x128.Idx → EReal)
      (broadcastInDim S3500x128 ![] bcast_S_S3500x128 (constant (F := Ideal) S_ .f32 0x7FC00000#32))
      (W (Proc.devRef .tc main_arg1)) := by
  after_results_simp
  rfl

theorem V7_arg5 (c : Dev nD) : V7 m ρ c main_arg5 = (m ((c : Thread nD τ).loc main_arg5)) :=
  (stretch1_arg5 (W4 m ρ c)).trans (W4_arg5 m ρ c)

theorem V7_arg8 (c : Dev nD) : V7 m ρ c main_arg8 = (m ((c : Thread nD τ).loc main_arg8)) :=
  (stretch1_arg8 (W4 m ρ c)).trans (W4_arg8 m ρ c)

/-- THE RESULT BUFFER at the last boundary: the network's output of the argument arrays. -/
theorem value (c : Dev nD) (h1 : (∀ k, -(4000 : Int) ≤ ((m ((c : Thread nD τ).loc main_arg1)) k).toInt ∧ ((m ((c : Thread nD τ).loc main_arg1)) k).toInt < 4000)) (h2 : (∀ k, -(20000 : Int) ≤ ((m ((c : Thread nD τ).loc main_arg2)) k).toInt ∧ ((m ((c : Thread nD τ).loc main_arg2)) k).toInt < 20000))
    (h3 : (∀ k, -(4000 : Int) ≤ ((m ((c : Thread nD τ).loc main_arg3)) k).toInt ∧ ((m ((c : Thread nD τ).loc main_arg3)) k).toInt < 4000)) (h4 : (∀ k, -(20000 : Int) ≤ ((m ((c : Thread nD τ).loc main_arg4)) k).toInt ∧ ((m ((c : Thread nD τ).loc main_arg4)) k).toInt < 20000)) :
    W8 m ρ c (Proc.devRef .tc main_v7) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 4).trans ((Region1.final (V7 m ρ) c).trans ?_)
  show MeanAggregate.layer 1024 3500 (V7 m ρ c main_arg5) (V7 m ρ c main_v6) (V7 m ρ c main_v4) (V7 m ρ c main_arg8) = _
  have e4 : V7 m ρ c main_v4 = Host.gather gather_S4000x128_S1024x1_S1024x128_1_0_n_n_0_1_1128 (W4 m ρ c (Proc.devRef .tc main_v3)) (colD1 (W4 m ρ c (Proc.devRef .tc main_arg3))) :=
    (stretch1_v4 (W4 m ρ c)).trans (take_fill_eq_gather gather_S4000x128_S1024x1_S1024x128_1_0_n_n_0_1_1128 4000 (by norm_num) _ _ _ _ _ _ _ (fun _ => rfl) (fun _ => (by decide : (BitVec.ofNat 32 3999).toInt = ((4000 : Nat) : Int) - 1)) _ (fun _ => rfl) _ _ _ _ _ _ _ fun k => int_cast_range 4000 (by norm_num) (by rw [W4_arg3]; exact h3 k))
  have e6 : V7 m ρ c main_v6 = Host.gather gather_S4000x128_S3500x1_S3500x128_1_0_n_n_0_1_1128 (W4 m ρ c (Proc.devRef .tc main_v3)) (colS1 (W4 m ρ c (Proc.devRef .tc main_arg1))) :=
    (stretch1_v6 (W4 m ρ c)).trans (take_fill_eq_gather gather_S4000x128_S3500x1_S3500x128_1_0_n_n_0_1_1128 4000 (by norm_num) _ _ _ _ _ _ _ (fun _ => rfl) (fun _ => (by decide : (BitVec.ofNat 32 3999).toInt = ((4000 : Nat) : Int) - 1)) _ (fun _ => rfl) _ _ _ _ _ _ _ fun k => int_cast_range 4000 (by norm_num) (by rw [W4_arg1]; exact h1 k))
  rw [V7_arg5, V7_arg8, e4, e6, W4_arg1, W4_arg3, W4_v3 m ρ c h2 h4]
  rfl

/-- The kernel's run with the result named: every weakly fair execution terminates with the result buffer at the network's
    output of the argument arrays, which end as launched. -/
theorem run (h1 : ∀ c : Dev nD, (∀ k, -(4000 : Int) ≤ ((m ((c : Thread nD τ).loc main_arg1)) k).toInt ∧ ((m ((c : Thread nD τ).loc main_arg1)) k).toInt < 4000)) (h2 : ∀ c : Dev nD, (∀ k, -(20000 : Int) ≤ ((m ((c : Thread nD τ).loc main_arg2)) k).toInt ∧ ((m ((c : Thread nD τ).loc main_arg2)) k).toInt < 20000))
    (h3 : ∀ c : Dev nD, (∀ k, -(4000 : Int) ≤ ((m ((c : Thread nD τ).loc main_arg3)) k).toInt ∧ ((m ((c : Thread nD τ).loc main_arg3)) k).toInt < 4000)) (h4 : ∀ c : Dev nD, (∀ k, -(20000 : Int) ≤ ((m ((c : Thread nD τ).loc main_arg4)) k).toInt ∧ ((m ((c : Thread nD τ).loc main_arg4)) k).toInt < 20000)) :
    θ_run defs (onTc (τ := τ) (main (F := Ideal))) ⟨m, fun _ => 0, ρ⟩ (fun r => ∀ c : Dev nD,
      r.2.mem ((c.tc : Thread nD τ).loc main_v7) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (value m ρ c (h1 c) (h2 c) (h3 c) (h4 c)), (h c).2⟩)
    (Cert.KernelIdeal.FrameValue.frame_value m ρ)

end Cert.KernelIdeal.Result

end
-- ==== Proof.RefValue.lean ====
/-
  The reference's result is the same function of the argument arrays: each of its two `_mean_aggregate` calls is the
  host spelling of the layer (two `dot_general`s around a `concatenate`, then `relu`'s maximum against a broadcast
  zero), over rows gathered at the wrapped indices.
-/
import proofs.«416262_j79216376807521_3_alg».proof.Proof.Gen.ReferenceIdeal.Run
import proofs.«416262_j79216376807521_3_alg».proof.Proof.Gen.ReferenceIdeal.Read
import proofs.«416262_j79216376807521_3_alg».proof.Proof.Spec

noncomputable section

namespace Cert.ReferenceIdeal.RefValue

open Idealize.ShloMosaic Idealize.ShloMosaic.TakeFill Idealize.ShloMosaic.MeanAggregate
open Cert.ReferenceIdeal Cert.ReferenceIdeal.Read Cert.Spec

/-- The first `_mean_aggregate` call's stage is the hop-2 layer's output. -/
theorem hop2_eq (a0 : S20000x128.Idx → EReal) (a2 : IVec S16000 32) (a4 : IVec S4000 32) (a6 : S4000x16000.Idx → EReal)
    (a7 : S256x128.Idx → EReal) : val_main_v17 (F := Ideal) a0 a2 a4 a6 a7 = hop2 a0 a2 a4 a6 a7 := by
  unfold val_main_v17 val_main_call0_v0 val_main_call0_cst val_main_v16 val_main_v15 val_main_v14
  refine (host_layer_eq 4000 16000 _ _ _ _ _ _).trans ?_
  rfl

/-- The program's result stage is the network's output. -/
theorem result_eq (a0 : S20000x128.Idx → EReal) (a1 : IVec S3500 32) (a2 : IVec S16000 32) (a3 : IVec S1024 32) (a4 : IVec S4000 32)
    (a5 : S1024x3500.Idx → EReal) (a6 : S4000x16000.Idx → EReal) (a7 a8 : S256x128.Idx → EReal) :
    val_main_v35 (F := Ideal) a0 a1 a2 a3 a4 a5 a6 a7 a8 = result a0 a1 a2 a3 a4 a5 a6 a7 a8 := by
  unfold val_main_v35 val_main_call1_v0 val_main_call1_cst val_main_v34 val_main_v33 val_main_v32 val_main_v31 val_main_v24
  refine (host_layer_eq 1024 3500 _ _ _ _ _ _).trans ?_
  rw [hop2_eq]
  rfl

end Cert.ReferenceIdeal.RefValue

end
-- ==== Proof.lean ====
/- A two-layer GraphSAGE mean-aggregator (gather, diffusion matmul, concat, linear, relu; twice) as two pallas_calls
   against its jnp reference, equal over the extended reals.

   Each layer is `max ([D · x[src] ‖ x[dst]] · w) 0`. The kernel gathers rows on the host with `jnp.take` (fill mode:
   rows at out-of-range indices are a fill value) and runs the rest of a layer in one pallas_call, a block of rows of
   `D` and of `x[dst]` per grid point; the reference indexes `x[idx]` (clamping) and uses whole-array `dot_general`s.
   On index words in `[-N, N)` — NumPy's domain for an axis of extent `N`, which the precondition states for the four
   index inputs — the two gathers are one term (Proof/LibTakeFill.lean); a row of the layer reads only that row of `D`
   and of `x[dst]`, so the row blocks the grid points write back tile the layer of the whole arrays
   (Proof/LibMeanAggregate.lean, Proof/KernelRegion0.lean, Proof/KernelRegion1.lean); the bf16 narrowings are the
   identity at the ideal values, and no law beyond reading both spellings at an index is used, so the finiteness
   conjuncts of the precondition are never opened. Proof/Spec.lean states the common value, Proof/KernelValue.lean that
   the kernel's result buffer ends there, Proof/RefValue.lean that the reference's does. The idealization's ledger is
   empty, so `preserves` is `True`; the three frames are the generated ones. -/
import proofs.«416262_j79216376807521_3_alg».proof.Defs
import proofs.«416262_j79216376807521_3_alg».proof.Proof.Gen.Kernel
import proofs.«416262_j79216376807521_3_alg».proof.Proof.Gen.Kernel.Skeleton
import proofs.«416262_j79216376807521_3_alg».proof.Proof.Gen.Kernel.Launch
import proofs.«416262_j79216376807521_3_alg».proof.Proof.Gen.Kernel.Points
import proofs.«416262_j79216376807521_3_alg».proof.Proof.Gen.Kernel.Frame
import proofs.«416262_j79216376807521_3_alg».proof.Proof.Gen.KernelIdeal
import proofs.«416262_j79216376807521_3_alg».proof.Proof.Gen.KernelIdeal.Skeleton
import proofs.«416262_j79216376807521_3_alg».proof.Proof.Gen.KernelIdeal.Launch
import proofs.«416262_j79216376807521_3_alg».proof.Proof.Gen.KernelIdeal.Points
import proofs.«416262_j79216376807521_3_alg».proof.Proof.Gen.KernelIdeal.Frame
import proofs.«416262_j79216376807521_3_alg».proof.Proof.Gen.ReferenceIdeal
import proofs.«416262_j79216376807521_3_alg».proof.Proof.Gen.ReferenceIdeal.Run
import proofs.«416262_j79216376807521_3_alg».proof.Proof.Gen.ReferenceIdeal.Read
import proofs.«416262_j79216376807521_3_alg».proof.Proof.Gen.Pre_finite_inputs
import proofs.«416262_j79216376807521_3_alg».proof.Proof.PreDecode
import proofs.«416262_j79216376807521_3_alg».proof.Proof.KernelValue
import proofs.«416262_j79216376807521_3_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at the network's output (Proof/Spec.lean `result`) of argument arrays that
    agree: the kernel's by its run with the result named, under the index ranges the precondition gives; the
    reference's by its generated run, whose term is the same function. -/
theorem algebraic : Cert.algebraic_KernelIdeal_ReferenceIdeal := by
  intro m ρ m' ρ' hpre hagree
  have hr := fun c => Cert.PreDecode.ranges _ _ _ _ _ _ _ _ _ (hpre c)
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Result.run m ρ (fun c => (hr c).1) (fun c => (hr c).2.1) (fun c => (hr c).2.2.1) (fun c => (hr c).2.2.2), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e3, e4, e5, e6, e7, e8]
  exact (Cert.ReferenceIdeal.Read.val_main_v35_eq _ _ _ _ _ _ _ _ _).trans (Cert.ReferenceIdeal.RefValue.result_eq _ _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
